-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S8x3x1048576 : Shape := ⟨3, ![8, 3, 1048576]⟩
abbrev S33x3x33x33 : Shape := ⟨4, ![33, 3, 33, 33]⟩
abbrev S33x3267 : Shape := ⟨2, ![33, 3267]⟩
abbrev S1x3x2048 : Shape := ⟨3, ![1, 3, 2048]⟩
abbrev S1x1x2048 : Shape := ⟨3, ![1, 1, 2048]⟩
abbrev S2048 : Shape := ⟨1, ![2048]⟩
abbrev S2048x33 : Shape := ⟨2, ![2048, 33]⟩
abbrev S2048x1 : Shape := ⟨2, ![2048, 1]⟩
abbrev S33x1089 : Shape := ⟨2, ![33, 1089]⟩
abbrev S2048x1089 : Shape := ⟨2, ![2048, 1089]⟩
abbrev S2048x33x33 : Shape := ⟨3, ![2048, 33, 33]⟩
abbrev S2048x33x1 : Shape := ⟨3, ![2048, 33, 1]⟩
abbrev S1x2048 : Shape := ⟨2, ![1, 2048]⟩
abbrev S3x2048 : Shape := ⟨2, ![3, 2048]⟩

abbrev nBuf : Space → Nat
  | .hbm => 7
  | .vmem => 5
  | .smem => 0
  | _ => 0

abbrev bufTy : (tb : Table) → Fin (tcTables nBuf tb) → BufTy
  | .hbm, ⟨0, _⟩ => ⟨S3x33x33x33, .f32⟩
  | .hbm, ⟨1, _⟩ => ⟨S8x3x1024x1024, .f32⟩
  | .hbm, ⟨2, _⟩ => ⟨S8x3x1048576, .f32⟩
  | .hbm, ⟨3, _⟩ => ⟨S33x3x33x33, .f32⟩
  | .hbm, ⟨4, _⟩ => ⟨S33x3267, .f32⟩
  | .hbm, ⟨5, _⟩ => ⟨S8x3x1048576, .f32⟩
  | .hbm, ⟨6, _⟩ => ⟨S8x3x1024x1024, .f32⟩
  | .local _ .vmem, ⟨0, _⟩ => ⟨S1x3x2048, .f32⟩
  | .local _ .vmem, ⟨1, _⟩ => ⟨S1x3x2048, .f32⟩
  | .local _ .vmem, ⟨2, _⟩ => ⟨S33x3267, .f32⟩
  | .local _ .vmem, ⟨3, _⟩ => ⟨S1x3x2048, .f32⟩
  | .local _ .vmem, ⟨4, _⟩ => ⟨S1x3x2048, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 512], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S33x3267 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x3x1024x1024_S8x3x1048576 : S8x3x1024x1024.ShapeCasts S8x3x1048576
  transposes_S3x33x33x33_S33x3x33x33_1_0_2_3 : S3x33x33x33.Transposes [1, 0, 2, 3] S33x3x33x33
  shapeCasts_S33x3x33x33_S33x3267 : S33x3x33x33.ShapeCasts S33x3267
  inb_S1x3x2048_S1x1x2048_0_0_0 : ∀ a, (![0, 0, 0] : Fin 3 → Nat) a + S1x1x2048.size a ≤ S1x3x2048.size a
  h_S1x1x2048 : 0 < S1x1x2048.numel
  shapeCasts_S1x1x2048_S2048 : S1x1x2048.ShapeCasts S2048
  inb_S1x3x2048_S1x1x2048_0_1_0 : ∀ a, (![0, 1, 0] : Fin 3 → Nat) a + S1x1x2048.size a ≤ S1x3x2048.size a
  inb_S1x3x2048_S1x1x2048_0_2_0 : ∀ a, (![0, 2, 0] : Fin 3 → Nat) a + S1x1x2048.size a ≤ S1x3x2048.size a
  iota_S2048x33_d1_w32 : S2048x33.Iotas .tc 32 [1]
  shapeCasts_S2048_S2048x1 : S2048.ShapeCasts S2048x1
  broadcasts_S2048x1_S2048x33 : S2048x1.Broadcasts S2048x33
  shapeCasts_S2048x1_S2048x1 : S2048x1.ShapeCasts S2048x1
  bitsLt_bf16_f32 : FTy.bits .bf16 < FTy.bits .f32
  inb_S33x3267_S33x3267_0_0 : ∀ a, (![0, 0] : Fin 2 → Nat) a + S33x3267.size a ≤ S33x3267.size a
  h_S33x3267 : 0 < S33x3267.numel
  shapeCasts_S33x3267_S33x3267 : S33x3267.ShapeCasts S33x3267
  slices_S33x3267_o0_0_S33x1089 : S33x3267.Slices ![0, 0] S33x1089
  shapeCasts_S2048x1089_S2048x33x33 : S2048x1089.ShapeCasts S2048x33x33
  shapeCasts_S2048x33_S2048x33x1 : S2048x33.ShapeCasts S2048x33x1
  broadcasts_S2048x33x1_S2048x33x33 : S2048x33x1.Broadcasts S2048x33x33
  reduces_S2048x33x33_S2048x33 : S2048x33x33.Reduces [1] S2048x33
  reduces_S2048x33_S2048 : S2048x33.Reduces [1] S2048
  slices_S33x3267_o0_1089_S33x1089 : S33x3267.Slices ![0, 1089] S33x1089
  slices_S33x3267_o0_2178_S33x1089 : S33x3267.Slices ![0, 2178] S33x1089
  shapeCasts_S2048_S1x2048 : S2048.ShapeCasts S1x2048
  concatenates_S1x2048_S1x2048_S1x2048_S3x2048_d0 : Shape.Concatenates [S1x2048, S1x2048, S1x2048] S3x2048 0
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  shapeCasts_S3x2048_S1x3x2048 : S3x2048.ShapeCasts S1x3x2048
  shapeCasts_S8x3x1048576_S8x3x1024x1024 : S8x3x1048576.ShapeCasts S8x3x1024x1024
  dot_S2048x33_S33x1089_S2048x1089_1_0_0_1_n_n_wf : DotDims.WF S2048x33 S33x1089 S2048x1089 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S8x3x1048576.size a
  hwx0_0 : ∀ i : grid0.Coords, EltTy.bits .f32 = 32 ∨ (Rect.block (s := S8x3x1048576) S1x3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x3267.size a ≤ S33x3267.size a
  hwx0_1 : ∀ i : grid0.Coords, EltTy.bits .f32 = 32 ∨ (Rect.block (s := S33x3267) S33x3267.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2048.size a ≤ S8x3x1048576.size a
  hwx0_2 : ∀ i : grid0.Coords, EltTy.bits .f32 = 32 ∨ (Rect.block (s := S8x3x1048576) S1x3x2048.size (cc0_transform_2 i) (hinb0_2 i)).WholeWords (EltTy.packing .f32)

variable [Facts₀]

def dot_S2048x33_S33x1089_S2048x1089_1_0_0_1_n_n : DotDims S2048x33 S33x1089 S2048x1089 where
  lhsContracting := [1]
  rhsContracting := [0]
  lhsNonContracting := [0]
  rhsNonContracting := [1]
  lhsBatch := []
  rhsBatch := []
  wf := dot_S2048x33_S33x1089_S2048x1089_1_0_0_1_n_n_wf

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S33x3267.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S3x8x1024x1024 : Shape := ⟨4, ![3, 8, 1024, 1024]⟩
abbrev S8x1024x1024x1 : Shape := ⟨4, ![8, 1024, 1024, 1]⟩
abbrev S1x8x1024x1024 : Shape := ⟨4, ![1, 8, 1024, 1024]⟩

abbrev nBuf : Space → Nat
  | .hbm => 281
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S8x1x1024x1024, .f32⟩
  | 5 => ⟨S8x1024x1024, .f32⟩
  | 6 => ⟨S8x1x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S3x35937, .f32⟩
  | 54 => ⟨S_, .i32⟩
  | 55 => ⟨S8x1024x1024, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i32⟩
  | 61 => ⟨S_, .i32⟩
  | 62 => ⟨S8x1024x1024, .i32⟩
  | 63 => ⟨S8x1024x1024, .i32⟩
  | 64 => ⟨S8x1024x1024, .i32⟩
  | 65 => ⟨S_, .f32⟩
  | 66 => ⟨S3x8x1024x1024, .f32⟩
  | 67 => ⟨S_, .f32⟩
  | 68 => ⟨S8x1024x1024, .f32⟩
  | 69 => ⟨S8x1024x1024, .f32⟩
  | 70 => ⟨S_, .f32⟩
  | 71 => ⟨S8x1024x1024, .f32⟩
  | 72 => ⟨S8x1024x1024, .f32⟩
  | 73 => ⟨S_, .f32⟩
  | 74 => ⟨S8x1024x1024, .f32⟩
  | 75 => ⟨S8x1024x1024, .f32⟩
  | 76 => ⟨S_, .i32⟩
  | 77 => ⟨S8x1024x1024, .i32⟩
  | 78 => ⟨S8x1024x1024, .i32⟩
  | 79 => ⟨S_, .i32⟩
  | 80 => ⟨S8x1024x1024, .i32⟩
  | 81 => ⟨S8x1024x1024, .i32⟩
  | 82 => ⟨S_, .i32⟩
  | 83 => ⟨S8x1024x1024, .i32⟩
  | 84 => ⟨S8x1024x1024, .i32⟩
  | 85 => ⟨S_, .i32⟩
  | 86 => ⟨S8x1024x1024, .i32⟩
  | 87 => ⟨S8x1024x1024, .i1⟩
  | 88 => ⟨S_, .i32⟩
  | 89 => ⟨S8x1024x1024, .i32⟩
  | 90 => ⟨S8x1024x1024, .i32⟩
  | 91 => ⟨S8x1024x1024, .i32⟩
  | 92 => ⟨S8x1024x1024x1, .i32⟩
  | 93 => ⟨S3x8x1024x1024, .f32⟩
  | 94 => ⟨S8x1024x1024, .f32⟩
  | 95 => ⟨S8x1024x1024, .f32⟩
  | 96 => ⟨S1x8x1024x1024, .f32⟩
  | 97 => ⟨S3x8x1024x1024, .f32⟩
  | 98 => ⟨S3x8x1024x1024, .f32⟩
  | 99 => ⟨S3x8x1024x1024, .f32⟩
  | 100 => ⟨S_, .i32⟩
  | 101 => ⟨S8x1024x1024, .i32⟩
  | 102 => ⟨S8x1024x1024, .i32⟩
  | 103 => ⟨S_, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i32⟩
  | 109 => ⟨S_, .i32⟩
  | 110 => ⟨S8x1024x1024, .i32⟩
  | 111 => ⟨S8x1024x1024, .i1⟩
  | 112 => ⟨S_, .i32⟩
  | 113 => ⟨S8x1024x1024, .i32⟩
  | 114 => ⟨S8x1024x1024, .i32⟩
  | 115 => ⟨S8x1024x1024, .i32⟩
  | 116 => ⟨S8x1024x1024x1, .i32⟩
  | 117 => ⟨S3x8x1024x1024, .f32⟩
  | 118 => ⟨S8x1024x1024, .f32⟩
  | 119 => ⟨S8x1024x1024, .f32⟩
  | 120 => ⟨S1x8x1024x1024, .f32⟩
  | 121 => ⟨S3x8x1024x1024, .f32⟩
  | 122 => ⟨S3x8x1024x1024, .f32⟩
  | 123 => ⟨S3x8x1024x1024, .f32⟩
  | 124 => ⟨S_, .f32⟩
  | 125 => ⟨S8x1024x1024, .f32⟩
  | 126 => ⟨S8x1024x1024, .f32⟩
  | 127 => ⟨S_, .i32⟩
  | _ => ⟨S3x33x33x33, .f32⟩

abbrev hbmTy0_1 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i32⟩
  | 5 => ⟨S_, .i32⟩
  | 6 => ⟨S8x1024x1024, .i32⟩
  | 7 => ⟨S8x1024x1024, .i32⟩
  | 8 => ⟨S_, .i32⟩
  | 9 => ⟨S8x1024x1024, .i32⟩
  | 10 => ⟨S8x1024x1024, .i1⟩
  | 11 => ⟨S_, .i32⟩
  | 12 => ⟨S8x1024x1024, .i32⟩
  | 13 => ⟨S8x1024x1024, .i32⟩
  | 14 => ⟨S8x1024x1024, .i32⟩
  | 15 => ⟨S8x1024x1024x1, .i32⟩
  | 16 => ⟨S3x8x1024x1024, .f32⟩
  | 17 => ⟨S8x1024x1024, .f32⟩
  | 18 => ⟨S8x1024x1024, .f32⟩
  | 19 => ⟨S1x8x1024x1024, .f32⟩
  | 20 => ⟨S3x8x1024x1024, .f32⟩
  | 21 => ⟨S3x8x1024x1024, .f32⟩
  | 22 => ⟨S3x8x1024x1024, .f32⟩
  | 23 => ⟨S_, .i32⟩
  | 24 => ⟨S8x1024x1024, .i32⟩
  | 25 => ⟨S8x1024x1024, .i32⟩
  | 26 => ⟨S_, .i32⟩
  | 27 => ⟨S8x1024x1024, .i32⟩
  | 28 => ⟨S8x1024x1024, .i32⟩
  | 29 => ⟨S_, .i32⟩
  | 30 => ⟨S8x1024x1024, .i32⟩
  | 31 => ⟨S8x1024x1024, .i32⟩
  | 32 => ⟨S_, .i32⟩
  | 33 => ⟨S8x1024x1024, .i32⟩
  | 34 => ⟨S8x1024x1024, .i1⟩
  | 35 => ⟨S_, .i32⟩
  | 36 => ⟨S8x1024x1024, .i32⟩
  | 37 => ⟨S8x1024x1024, .i32⟩
  | 38 => ⟨S8x1024x1024, .i32⟩
  | 39 => ⟨S8x1024x1024x1, .i32⟩
  | 40 => ⟨S3x8x1024x1024, .f32⟩
  | 41 => ⟨S8x1024x1024, .f32⟩
  | 42 => ⟨S8x1024x1024, .f32⟩
  | 43 => ⟨S1x8x1024x1024, .f32⟩
  | 44 => ⟨S3x8x1024x1024, .f32⟩
  | 45 => ⟨S3x8x1024x1024, .f32⟩
  | 46 => ⟨S3x8x1024x1024, .f32⟩
  | 47 => ⟨S_, .f32⟩
  | 48 => ⟨S8x1024x1024, .f32⟩
  | 49 => ⟨S8x1024x1024, .f32⟩
  | 50 => ⟨S_, .f32⟩
  | 51 => ⟨S8x1024x1024, .f32⟩
  | 52 => ⟨S8x1024x1024, .f32⟩
  | 53 => ⟨S_, .i32⟩
  | 54 => ⟨S8x1024x1024, .i32⟩
  | 55 => ⟨S8x1024x1024, .i32⟩
  | 56 => ⟨S_, .i32⟩
  | 57 => ⟨S8x1024x1024, .i32⟩
  | 58 => ⟨S8x1024x1024, .i32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S8x1024x1024x1, .i32⟩
  | 70 => ⟨S3x8x1024x1024, .f32⟩
  | 71 => ⟨S8x1024x1024, .f32⟩
  | 72 => ⟨S8x1024x1024, .f32⟩
  | 73 => ⟨S1x8x1024x1024, .f32⟩
  | 74 => ⟨S3x8x1024x1024, .f32⟩
  | 75 => ⟨S3x8x1024x1024, .f32⟩
  | 76 => ⟨S3x8x1024x1024, .f32⟩
  | 77 => ⟨S_, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i1⟩
  | 89 => ⟨S_, .i32⟩
  | 90 => ⟨S8x1024x1024, .i32⟩
  | 91 => ⟨S8x1024x1024, .i32⟩
  | 92 => ⟨S8x1024x1024, .i32⟩
  | 93 => ⟨S8x1024x1024x1, .i32⟩
  | 94 => ⟨S3x8x1024x1024, .f32⟩
  | 95 => ⟨S8x1024x1024, .f32⟩
  | 96 => ⟨S8x1024x1024, .f32⟩
  | 97 => ⟨S1x8x1024x1024, .f32⟩
  | 98 => ⟨S3x8x1024x1024, .f32⟩
  | 99 => ⟨S3x8x1024x1024, .f32⟩
  | 100 => ⟨S3x8x1024x1024, .f32⟩
  | 101 => ⟨S_, .f32⟩
  | 102 => ⟨S8x1024x1024, .f32⟩
  | 103 => ⟨S8x1024x1024, .f32⟩
  | 104 => ⟨S_, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i32⟩
  | 110 => ⟨S_, .i32⟩
  | 111 => ⟨S8x1024x1024, .i32⟩
  | 112 => ⟨S8x1024x1024, .i32⟩
  | 113 => ⟨S_, .i32⟩
  | 114 => ⟨S8x1024x1024, .i32⟩
  | 115 => ⟨S8x1024x1024, .i1⟩
  | 116 => ⟨S_, .i32⟩
  | 117 => ⟨S8x1024x1024, .i32⟩
  | 118 => ⟨S8x1024x1024, .i32⟩
  | 119 => ⟨S8x1024x1024, .i32⟩
  | 120 => ⟨S8x1024x1024x1, .i32⟩
  | 121 => ⟨S3x8x1024x1024, .f32⟩
  | 122 => ⟨S8x1024x1024, .f32⟩
  | 123 => ⟨S8x1024x1024, .f32⟩
  | 124 => ⟨S1x8x1024x1024, .f32⟩
  | 125 => ⟨S3x8x1024x1024, .f32⟩
  | 126 => ⟨S3x8x1024x1024, .f32⟩
  | 127 => ⟨S3x8x1024x1024, .f32⟩
  | _ => ⟨S3x33x33x33, .f32⟩

abbrev hbmTy0_2 (i : Nat) : BufTy := match i % 128 with
  | 0 => ⟨S_, .i32⟩
  | 1 => ⟨S8x1024x1024, .i32⟩
  | 2 => ⟨S8x1024x1024, .i32⟩
  | 3 => ⟨S_, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i32⟩
  | 9 => ⟨S_, .i32⟩
  | 10 => ⟨S8x1024x1024, .i32⟩
  | 11 => ⟨S8x1024x1024, .i1⟩
  | 12 => ⟨S_, .i32⟩
  | 13 => ⟨S8x1024x1024, .i32⟩
  | 14 => ⟨S8x1024x1024, .i32⟩
  | 15 => ⟨S8x1024x1024, .i32⟩
  | 16 => ⟨S8x1024x1024x1, .i32⟩
  | 17 => ⟨S3x8x1024x1024, .f32⟩
  | 18 => ⟨S8x1024x1024, .f32⟩
  | 19 => ⟨S8x1024x1024, .f32⟩
  | 20 => ⟨S1x8x1024x1024, .f32⟩
  | 21 => ⟨S3x8x1024x1024, .f32⟩
  | 22 => ⟨S3x8x1024x1024, .f32⟩
  | 23 => ⟨S3x8x1024x1024, .f32⟩
  | 24 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_c_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_10 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_v40 : Ref sig .tc := ⟨.hbm, 72, rfl⟩
abbrev main_cst_13 : Ref sig .tc := ⟨.hbm, 73, rfl⟩
abbrev main_v41 : Ref sig .tc := ⟨.hbm, 74, rfl⟩
abbrev main_v42 : Ref sig .tc := ⟨.hbm, 75, rfl⟩
abbrev main_c_14 : Ref sig .tc := ⟨.hbm, 76, rfl⟩
abbrev main_v43 : Ref sig .tc := ⟨.hbm, 77, rfl⟩
abbrev main_v44 : Ref sig .tc := ⟨.hbm, 78, rfl⟩
abbrev main_c_15 : Ref sig .tc := ⟨.hbm, 79, rfl⟩
abbrev main_v45 : Ref sig .tc := ⟨.hbm, 80, rfl⟩
abbrev main_v46 : Ref sig .tc := ⟨.hbm, 81, rfl⟩
abbrev main_c_16 : Ref sig .tc := ⟨.hbm, 82, rfl⟩
abbrev main_v47 : Ref sig .tc := ⟨.hbm, 83, rfl⟩
abbrev main_v48 : Ref sig .tc := ⟨.hbm, 84, rfl⟩
abbrev main_c_17 : Ref sig .tc := ⟨.hbm, 85, rfl⟩
abbrev main_v49 : Ref sig .tc := ⟨.hbm, 86, rfl⟩
abbrev main_v50 : Ref sig .tc := ⟨.hbm, 87, rfl⟩
abbrev main_c_18 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_19 : Ref sig .tc := ⟨.hbm, 100, rfl⟩
abbrev main_v62 : Ref sig .tc := ⟨.hbm, 101, rfl⟩
abbrev main_v63 : Ref sig .tc := ⟨.hbm, 102, rfl⟩
abbrev main_c_20 : Ref sig .tc := ⟨.hbm, 103, rfl⟩
abbrev main_v64 : Ref sig .tc := ⟨.hbm, 104, rfl⟩
abbrev main_v65 : Ref sig .tc := ⟨.hbm, 105, rfl⟩
abbrev main_c_21 : Ref sig .tc := ⟨.hbm, 106, rfl⟩
abbrev main_v66 : Ref sig .tc := ⟨.hbm, 107, rfl⟩
abbrev main_v67 : Ref sig .tc := ⟨.hbm, 108, rfl⟩
abbrev main_c_22 : Ref sig .tc := ⟨.hbm, 109, rfl⟩
abbrev main_v68 : Ref sig .tc := ⟨.hbm, 110, rfl⟩
abbrev main_v69 : Ref sig .tc := ⟨.hbm, 111, rfl⟩
abbrev main_c_23 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_24 : Ref sig .tc := ⟨.hbm, 124, rfl⟩
abbrev main_v81 : Ref sig .tc := ⟨.hbm, 125, rfl⟩
abbrev main_v82 : Ref sig .tc := ⟨.hbm, 126, rfl⟩
abbrev main_c_25 : Ref sig .tc := ⟨.hbm, 127, rfl⟩
abbrev main_v83 : Ref sig .tc := ⟨.hbm, 128, rfl⟩
abbrev main_v84 : Ref sig .tc := ⟨.hbm, 129, rfl⟩
abbrev main_c_26 : Ref sig .tc := ⟨.hbm, 130, rfl⟩
abbrev main_v85 : Ref sig .tc := ⟨.hbm, 131, rfl⟩
abbrev main_v86 : Ref sig .tc := ⟨.hbm, 132, rfl⟩
abbrev main_c_27 : Ref sig .tc := ⟨.hbm, 133, rfl⟩
abbrev main_v87 : Ref sig .tc := ⟨.hbm, 134, rfl⟩
abbrev main_v88 : Ref sig .tc := ⟨.hbm, 135, rfl⟩
abbrev main_c_28 : Ref sig .tc := ⟨.hbm, 136, rfl⟩
abbrev main_v89 : Ref sig .tc := ⟨.hbm, 137, rfl⟩
abbrev main_v90 : Ref sig .tc := ⟨.hbm, 138, rfl⟩
abbrev main_c_29 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_30 : Ref sig .tc := ⟨.hbm, 151, rfl⟩
abbrev main_v102 : Ref sig .tc := ⟨.hbm, 152, rfl⟩
abbrev main_v103 : Ref sig .tc := ⟨.hbm, 153, rfl⟩
abbrev main_c_31 : Ref sig .tc := ⟨.hbm, 154, rfl⟩
abbrev main_v104 : Ref sig .tc := ⟨.hbm, 155, rfl⟩
abbrev main_v105 : Ref sig .tc := ⟨.hbm, 156, rfl⟩
abbrev main_c_32 : Ref sig .tc := ⟨.hbm, 157, rfl⟩
abbrev main_v106 : Ref sig .tc := ⟨.hbm, 158, rfl⟩
abbrev main_v107 : Ref sig .tc := ⟨.hbm, 159, rfl⟩
abbrev main_c_33 : Ref sig .tc := ⟨.hbm, 160, rfl⟩
abbrev main_v108 : Ref sig .tc := ⟨.hbm, 161, rfl⟩
abbrev main_v109 : Ref sig .tc := ⟨.hbm, 162, rfl⟩
abbrev main_c_34 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_35 : Ref sig .tc := ⟨.hbm, 175, rfl⟩
abbrev main_v121 : Ref sig .tc := ⟨.hbm, 176, rfl⟩
abbrev main_v122 : Ref sig .tc := ⟨.hbm, 177, rfl⟩
abbrev main_cst_36 : Ref sig .tc := ⟨.hbm, 178, rfl⟩
abbrev main_v123 : Ref sig .tc := ⟨.hbm, 179, rfl⟩
abbrev main_v124 : Ref sig .tc := ⟨.hbm, 180, rfl⟩
abbrev main_c_37 : Ref sig .tc := ⟨.hbm, 181, rfl⟩
abbrev main_v125 : Ref sig .tc := ⟨.hbm, 182, rfl⟩
abbrev main_v126 : Ref sig .tc := ⟨.hbm, 183, rfl⟩
abbrev main_c_38 : Ref sig .tc := ⟨.hbm, 184, rfl⟩
abbrev main_v127 : Ref sig .tc := ⟨.hbm, 185, rfl⟩
abbrev main_v128 : Ref sig .tc := ⟨.hbm, 186, rfl⟩
abbrev main_c_39 : Ref sig .tc := ⟨.hbm, 187, rfl⟩
abbrev main_v129 : Ref sig .tc := ⟨.hbm, 188, rfl⟩
abbrev main_v130 : Ref sig .tc := ⟨.hbm, 189, rfl⟩
abbrev main_c_40 : Ref sig .tc := ⟨.hbm, 190, rfl⟩
abbrev main_v131 : Ref sig .tc := ⟨.hbm, 191, rfl⟩
abbrev main_v132 : Ref sig .tc := ⟨.hbm, 192, rfl⟩
abbrev main_c_41 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_c_42 : Ref sig .tc := ⟨.hbm, 205, rfl⟩
abbrev main_v144 : Ref sig .tc := ⟨.hbm, 206, rfl⟩
abbrev main_v145 : Ref sig .tc := ⟨.hbm, 207, rfl⟩
abbrev main_c_43 : Ref sig .tc := ⟨.hbm, 208, rfl⟩
abbrev main_v146 : Ref sig .tc := ⟨.hbm, 209, rfl⟩
abbrev main_v147 : Ref sig .tc := ⟨.hbm, 210, rfl⟩
abbrev main_c_44 : Ref sig .tc := ⟨.hbm, 211, rfl⟩
abbrev main_v148 : Ref sig .tc := ⟨.hbm, 212, rfl⟩
abbrev main_v149 : Ref sig .tc := ⟨.hbm, 213, rfl⟩
abbrev main_c_45 : Ref sig .tc := ⟨.hbm, 214, rfl⟩
abbrev main_v150 : Ref sig .tc := ⟨.hbm, 215, rfl⟩
abbrev main_v151 : Ref sig .tc := ⟨.hbm, 216, rfl⟩
abbrev main_c_46 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_47 : Ref sig .tc := ⟨.hbm, 229, rfl⟩
abbrev main_v163 : Ref sig .tc := ⟨.hbm, 230, rfl⟩
abbrev main_v164 : Ref sig .tc := ⟨.hbm, 231, rfl⟩
abbrev main_c_48 : Ref sig .tc := ⟨.hbm, 232, rfl⟩
abbrev main_v165 : Ref sig .tc := ⟨.hbm, 233, rfl⟩
abbrev main_v166 : Ref sig .tc := ⟨.hbm, 234, rfl⟩
abbrev main_c_49 : Ref sig .tc := ⟨.hbm, 235, rfl⟩
abbrev main_v167 : Ref sig .tc := ⟨.hbm, 236, rfl⟩
abbrev main_v168 : Ref sig .tc := ⟨.hbm, 237, rfl⟩
abbrev main_c_50 : Ref sig .tc := ⟨.hbm, 238, rfl⟩
abbrev main_v169 : Ref sig .tc := ⟨.hbm, 239, rfl⟩
abbrev main_v170 : Ref sig .tc := ⟨.hbm, 240, rfl⟩
abbrev main_c_51 : Ref sig .tc := ⟨.hbm, 241, rfl⟩
abbrev main_v171 : Ref sig .tc := ⟨.hbm, 242, rfl⟩
abbrev main_v172 : Ref sig .tc := ⟨.hbm, 243, rfl⟩
abbrev main_c_52 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_c_53 : Ref sig .tc := ⟨.hbm, 256, rfl⟩
abbrev main_v184 : Ref sig .tc := ⟨.hbm, 257, rfl⟩
abbrev main_v185 : Ref sig .tc := ⟨.hbm, 258, rfl⟩
abbrev main_c_54 : Ref sig .tc := ⟨.hbm, 259, rfl⟩
abbrev main_v186 : Ref sig .tc := ⟨.hbm, 260, rfl⟩
abbrev main_v187 : Ref sig .tc := ⟨.hbm, 261, rfl⟩
abbrev main_c_55 : Ref sig .tc := ⟨.hbm, 262, rfl⟩
abbrev main_v188 : Ref sig .tc := ⟨.hbm, 263, rfl⟩
abbrev main_v189 : Ref sig .tc := ⟨.hbm, 264, rfl⟩
abbrev main_c_56 : Ref sig .tc := ⟨.hbm, 265, rfl⟩
abbrev main_v190 : Ref sig .tc := ⟨.hbm, 266, rfl⟩
abbrev main_v191 : Ref sig .tc := ⟨.hbm, 267, rfl⟩
abbrev main_c_57 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S_S3x8x1024x1024 : S_.BroadcastsInDim S3x8x1024x1024 (![] : Fin 0 → Fin S3x8x1024x1024.rank)
  bcast_S8x1024x1024_S8x1024x1024x1_0_1_2 : S8x1024x1024.BroadcastsInDim S8x1024x1024x1 (![0, 1, 2] : Fin 3 → Fin S8x1024x1024x1.rank)
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Finite.lean ====
/-
  The precondition read back: when the printed predicate "every entry of both inputs has absolute value below
  +infinity" is all ones, every entry of the table and of the image is a real number.
-/
import proofs.«164885_j13812614824357_1_alg».proof.Pre_finite_inputs
import Idealize.ShloMosaic.PureOps.Ideal
import Idealize.ShloMosaic.Lib.ReduceAll
import Idealize.ShloMosaic.Lib.ValueIdx

noncomputable section

namespace Cert.Lut3D

open Idealize.ShloMosaic Idealize.ShloMosaic.ValueIdx

variable [Cert.Pre_finite_inputs.Facts]

/-- A rank-0 shape has one index. -/
instance : Subsingleton Cert.Pre_finite_inputs.S_.Idx := ⟨fun a b => funext fun d => d.elim0⟩

/-- The f32 pattern of +infinity denotes the top element. -/
theorem inf_eq : Ideal.ofBits .f32 0x7F800000#32 = (⊤ : EReal) := by simp [Ideal.ofBits, Ideal.ieee]

/-- A one-bit word made from a truth value is 1 exactly when the value is true. -/
theorem ofBool_eq_one {b : Bool} : BitVec.ofBool b = 1#1 ↔ b = true := by cases b <;> decide

/-- An extended real whose absolute value is below the top element is a real. -/
theorem real_of_abs_lt_top (x : EReal) (hx : max x (-x) < ⊤) : ∃ t : ℝ, x = (t : EReal) := by
  induction x using EReal.rec with
  | bot => simp at hx
  | coe r => exact ⟨r, rfl⟩
  | top => simp at hx

/-- The comparison "absolute value below +infinity" coming out 1 says the value is a real. -/
theorem real_of_cmp (x : EReal)
    (e : Ideal.cmp .olt (max x (-x)) (Ideal.ofBits .f32 0x7F800000#32) = 1#1) : ∃ t : ℝ, x = (t : EReal) := by
  rw [inf_eq] at e
  have e2 : BitVec.ofBool (decide (max x (-x) < ⊤)) = 1#1 := e
  exact real_of_abs_lt_top x (of_decide_eq_true (ofBool_eq_one.1 e2))

theorem real_of_pre (a0 : Cert.Pre_finite_inputs.S3x33x33x33.Idx → EReal) (a1 : Cert.Pre_finite_inputs.S8x3x1024x1024.Idx → EReal)
    (h : Cert.Pre_finite_inputs.fn (F := Ideal) a0 a1 = fun _ => 1#1) :
    (∀ i, ∃ t : ℝ, a0 i = (t : EReal)) ∧ (∀ i, ∃ t : ℝ, a1 i = (t : EReal)) := by
  have h0 := congrFun h ValueIdx.ix0
  unfold Cert.Pre_finite_inputs.fn at h0
  dsimp only at h0
  obtain ⟨hA, hB⟩ := IntOp.andi_eq_one.1 h0
  refine ⟨fun i => ?_, fun i => ?_⟩
  · exact real_of_cmp (a0 i) (Host.reduce_andi_all _ _ _ _ _ hA i)
  · exact real_of_cmp (a1 i) (Host.reduce_andi_all _ _ _ _ _ hB i)

end Cert.Lut3D

end
-- ==== Proof.Spec.lean ====
/-
  Trilinear interpolation in a 33 x 33 x 33 colour table, stated once for both programs.

  A pixel's three channel values are each divided by the bin width (the f32 constant both programs
  print for 1.0001 / 32); the floor of the quotient, converted to a 32-bit integer and clamped to
  [0, 31], is the lattice cell on that axis, and the quotient less the cell is the offset inside
  the cell.  The interpolated value is the sum over the eight corners of the cell of the product
  of the three per-axis weights (offset, or one minus offset) with the table entry at the corner,
  written here in the order the reference accumulates it.
-/
import Idealize.ShloMosaic.PureOps.Ideal
import Idealize.ShloMosaic.Lib.ValueIdx

noncomputable section

namespace Cert.Lut3D

open Idealize.ShloMosaic Idealize.ShloMosaic.ValueIdx

/-- The bin width, as the extended real the printed f32 pattern denotes. -/
def binW : EReal := Ideal.ofBits .f32 0x3D000347#32

/-- The printed patterns of 1.0 and 0.0. -/
def one : EReal := Ideal.ofBits .f32 0x3F800000#32
def zero : EReal := Ideal.ofBits .f32 0x00000000#32

/-- A channel value in units of the bin width. -/
def scaled (v : EReal) : EReal := Ideal.div v binW

/-- The lattice cell of a channel value: floor, to a signed 32-bit word, clamped to [0, 31]. -/
def cell (v : EReal) : BitVec 32 :=
  IntOp.minsi 31#32 (IntOp.maxsi 0#32 (Ideal.fptosi 32 (Ideal.liftRound Int.floor (scaled v))))

/-- The offset of a channel value inside its cell. -/
def frac (v : EReal) : EReal := scaled v - (((cell v).toInt : ℝ) : EReal)

/-- Lattice node `w + d` on an axis of 33 nodes (no wrap when `w ≤ 31` and `d ≤ 1`). -/
def node (w : BitVec 32) (d : Nat) : Fin 33 := ⟨(w.toNat + d) % 33, Nat.mod_lt _ (by decide)⟩

/-- The eight-corner sum, in the reference's order: corners run with the r offset fastest, then g, then b;
    each weight is (r weight * g weight) * b weight. `T b g r` is the table of one output channel. -/
def tri (T : Fin 33 → Fin 33 → Fin 33 → EReal) (vb vg vr : EReal) : EReal :=
  ((((((((zero
    + (((one - frac vr) * (one - frac vg)) * (one - frac vb)) * T (node (cell vb) 0) (node (cell vg) 0) (node (cell vr) 0))
    + ((frac vr * (one - frac vg)) * (one - frac vb)) * T (node (cell vb) 0) (node (cell vg) 0) (node (cell vr) 1))
    + (((one - frac vr) * frac vg) * (one - frac vb)) * T (node (cell vb) 0) (node (cell vg) 1) (node (cell vr) 0))
    + ((frac vr * frac vg) * (one - frac vb)) * T (node (cell vb) 0) (node (cell vg) 1) (node (cell vr) 1))
    + (((one - frac vr) * (one - frac vg)) * frac vb) * T (node (cell vb) 1) (node (cell vg) 0) (node (cell vr) 0))
    + ((frac vr * (one - frac vg)) * frac vb) * T (node (cell vb) 1) (node (cell vg) 0) (node (cell vr) 1))
    + (((one - frac vr) * frac vg) * frac vb) * T (node (cell vb) 1) (node (cell vg) 1) (node (cell vr) 0))
    + ((frac vr * frac vg) * frac vb) * T (node (cell vb) 1) (node (cell vg) 1) (node (cell vr) 1))

/-- The weight a lattice node `k` gets on one axis from the cell `id` and the offset `d`: one minus the offset at
    the cell, the offset at the next node, zero elsewhere (as the kernel selects it against a lane index). -/
def hot (id : BitVec 32) (d : EReal) (k : Fin 33) : EReal :=
  Scalar.select (IntOp.cmpi .eq (BitVec.ofNat 32 k.val) id) (one - d)
    (Scalar.select (IntOp.cmpi .eq (BitVec.ofNat 32 k.val) (IntOp.addi id 1#32)) d zero)

/-- The same interpolation as three nested weighted sums over whole axes: b innermost, then g, then r. -/
def nested (T : Fin 33 → Fin 33 → Fin 33 → EReal) (vb vg vr : EReal) : EReal :=
  ∑ r : Fin 33, hot (cell vr) (frac vr) r *
    ∑ g : Fin 33, hot (cell vg) (frac vg) g *
      ∑ b : Fin 33, hot (cell vb) (frac vb) b * T b g r

/-- Column `c * 1089 + g * 33 + r` of the table re-laid as 33 rows (b) by 3267 columns. -/
def col (c : Fin 3) (g r : Fin 33) : Fin 3267 := ⟨c.val * 1089 + g.val * 33 + r.val, by
  have := c.isLt; have := g.isLt; have := r.isLt; omega⟩

/-- The whole result: output (n, c, h, w) interpolates channel c's table at pixel (n, h, w)'s three values
    (channel 0 is r, 1 is g, 2 is b; the table is indexed [c, b, g, r]). -/
def G (L : (⟨4, ![3, 33, 33, 33]⟩ : Shape).Idx → EReal) (x : (⟨4, ![8, 3, 1024, 1024]⟩ : Shape).Idx → EReal) :
    (⟨4, ![8, 3, 1024, 1024]⟩ : Shape).Idx → EReal := fun j =>
  tri (fun b g r => L (ix4 (j 1) b g r))
    (x (ix4 (j 0) (2 : Fin 3) (j 2) (j 3))) (x (ix4 (j 0) (1 : Fin 3) (j 2) (j 3))) (x (ix4 (j 0) (0 : Fin 3) (j 2) (j 3)))

end Cert.Lut3D

end
-- ==== Proof.Words.lean ====
/-
  Facts about the constants and the cell word of the interpolation: the printed patterns of 0.0 and 1.0 denote 0 and 1,
  the bin width is a nonzero real, a cell is a word in [0, 31], and the offset of a real channel value is real.
-/
import proofs.«164885_j13812614824357_1_alg».proof.Proof.Spec
import Idealize.ShloMosaic.PureOps.Ideal.Laws
import Idealize.ShloMosaic.Lib.StableHlo.Predicate

noncomputable section

namespace Cert.Lut3D

open Idealize.ShloMosaic

theorem zero_eq : zero = 0 := Ideal.ofBits_zero_f32

theorem one_eq : one = ((1 : ℝ) : EReal) := by
  unfold one
  simp [Ideal.ofBits, Ideal.ieee, -EReal.coe_mul]; norm_num

theorem binW_real : ∃ r : ℝ, r ≠ 0 ∧ binW = (r : EReal) := by
  unfold binW
  simp [Ideal.ofBits, Ideal.ieee, -EReal.coe_mul]

/-- A signed clamp of any word to [0, 31] is a word whose unsigned reading is at most 31. -/
theorem clamp_toNat_le (z : BitVec 32) : (IntOp.minsi 31#32 (IntOp.maxsi 0#32 z)).toNat ≤ 31 := by
  unfold IntOp.minsi IntOp.maxsi
  split_ifs with h1 h2 h2 <;> simp only [BitVec.slt, BitVec.toInt_eq_toNat_cond, decide_eq_true_eq] at * <;>
    simp at * <;> omega

/-- The clamp leaves a word between 0 and 31. -/
theorem cell_le (v : EReal) : (cell v).toNat ≤ 31 := clamp_toNat_le _

/-- So its signed reading is its unsigned one. -/
theorem cell_toInt (v : EReal) : (cell v).toInt = ((cell v).toNat : ℤ) :=
  StableHlo.Predicate.toInt_eq_toNat_of_lt (lt_of_le_of_lt (cell_le v) (by norm_num))

/-- A real channel value has a real quotient by the bin width, hence a real offset. -/
theorem scaled_real {v : EReal} (hv : ∃ t : ℝ, v = (t : EReal)) : ∃ t : ℝ, scaled v = (t : EReal) := by
  obtain ⟨t, rfl⟩ := hv
  obtain ⟨r, hr, hb⟩ := binW_real
  refine ⟨t * r⁻¹, ?_⟩
  unfold scaled Ideal.div
  rw [hb, if_neg (EReal.coe_ne_zero.2 hr), ← EReal.coe_inv, ← EReal.coe_mul]

theorem frac_real {v : EReal} (hv : ∃ t : ℝ, v = (t : EReal)) : ∃ t : ℝ, frac v = (t : EReal) := by
  obtain ⟨s, hs⟩ := scaled_real hv
  exact ⟨s - ((cell v).toInt : ℝ), by unfold frac; rw [hs, EReal.coe_sub]⟩

end Cert.Lut3D

end
-- ==== Proof.RefGather.lean ====
/-
  The reference's table look-ups: the gather of the flattened table read at one result element, the start-index
  word of each of the eight corners as a natural number, and that number's three base-33 digits as lattice nodes.
-/
import proofs.«164885_j13812614824357_1_alg».proof.Proof.Spec
import proofs.«164885_j13812614824357_1_alg».proof.Proof.Words
import proofs.«164885_j13812614824357_1_alg».proof.ReferenceIdeal
import Idealize.ShloMosaic.Lib.StableHlo.Predicate

noncomputable section

namespace Cert.Lut3D

open Idealize.ShloMosaic Idealize.ShloMosaic.ValueIdx Cert.ReferenceIdeal

variable [Cert.ReferenceIdeal.Facts]

/-- Result element (c, n, h, w) of the gather reads row c of the flattened table at pixel (n, h, w)'s start index,
    read as a signed integer and clamped into [0, 35936]. -/
theorem gather_apply {α : Type} (T : S3x35937.Idx → α) (idx : IVec S8x1024x1024x1 32)
    (c : Fin 3) (n : Fin 8) (h w : Fin 1024) :
    Host.gather gather_S3x35937_S8x1024x1024x1_S3x8x1024x1024_0_1_n_n_1_3_31 T idx (ix4 c n h w)
      = T (ix2 c ⟨min (idx (ix4 n h w (0 : Fin 1))).toInt.toNat 35936, by omega⟩) := by
  have hsim : gather_S3x35937_S8x1024x1024x1_S3x8x1024x1024_0_1_n_n_1_3_31.startIndexMap = [1] := rfl
  have hob : gather_S3x35937_S8x1024x1024x1_S3x8x1024x1024_0_1_n_n_1_3_31.operandBatchingDims = [] := rfl
  have hcoll : gather_S3x35937_S8x1024x1024x1_S3x8x1024x1024_0_1_n_n_1_3_31.collapsedSliceDims = [1] := rfl
  unfold Host.gather
  congr 1
  funext a
  refine Fin.ext ?_
  match a with
  | ⟨0, _⟩ =>
    have hm : (0 : Fin 2) ∉ gather_S3x35937_S8x1024x1024x1_S3x8x1024x1024_0_1_n_n_1_3_31.startIndexMap := by
      rw [hsim]; decide
    have hb : (0 : Fin 2) ∉ gather_S3x35937_S8x1024x1024x1_S3x8x1024x1024_0_1_n_n_1_3_31.operandBatchingDims := by
      rw [hob]; exact List.not_mem_nil
    have hk : (0 : Fin 2) ∈ gather_S3x35937_S8x1024x1024x1_S3x8x1024x1024_0_1_n_n_1_3_31.sKept := by
      rw [GatherDims.mem_sKept, hcoll, hob]; decide
    show gather_S3x35937_S8x1024x1024x1_S3x8x1024x1024_0_1_n_n_1_3_31.start (ix4 c n h w) idx 0
        + gather_S3x35937_S8x1024x1024x1_S3x8x1024x1024_0_1_n_n_1_3_31.batchCoord (ix4 c n h w) 0
        + gather_S3x35937_S8x1024x1024x1_S3x8x1024x1024_0_1_n_n_1_3_31.offCoord (ix4 c n h w) 0 = c.val
    rw [GatherDims.batchCoord_eq_zero _ _ _ hb]
    unfold GatherDims.start GatherDims.offCoord
    rw [dif_neg hm, dif_pos hk]
    simp only [Nat.zero_add, Nat.add_zero]
    rfl
  | ⟨1, _⟩ =>
    have hm : (1 : Fin 2) ∈ gather_S3x35937_S8x1024x1024x1_S3x8x1024x1024_0_1_n_n_1_3_31.startIndexMap := by
      rw [hsim]; exact List.mem_singleton.mpr rfl
    have hb : (1 : Fin 2) ∉ gather_S3x35937_S8x1024x1024x1_S3x8x1024x1024_0_1_n_n_1_3_31.operandBatchingDims := by
      rw [hob]; exact List.not_mem_nil
    have hk : (1 : Fin 2) ∉ gather_S3x35937_S8x1024x1024x1_S3x8x1024x1024_0_1_n_n_1_3_31.sKept := by
      rw [GatherDims.mem_sKept, hcoll]; simp
    show gather_S3x35937_S8x1024x1024x1_S3x8x1024x1024_0_1_n_n_1_3_31.start (ix4 c n h w) idx 1
        + gather_S3x35937_S8x1024x1024x1_S3x8x1024x1024_0_1_n_n_1_3_31.batchCoord (ix4 c n h w) 1
        + gather_S3x35937_S8x1024x1024x1_S3x8x1024x1024_0_1_n_n_1_3_31.offCoord (ix4 c n h w) 1
        = min (idx (ix4 n h w (0 : Fin 1))).toInt.toNat 35936
    rw [GatherDims.batchCoord_eq_zero _ _ _ hb, GatherDims.offCoord_eq_zero _ _ _ hk]
    simp only [Nat.add_zero]
    unfold GatherDims.start
    rw [dif_pos hm]
    have hsi : gather_S3x35937_S8x1024x1024x1_S3x8x1024x1024_0_1_n_n_1_3_31.siIdx (ix4 c n h w)
        ⟨List.idxOf (1 : Fin 2) gather_S3x35937_S8x1024x1024x1_S3x8x1024x1024_0_1_n_n_1_3_31.startIndexMap,
          List.idxOf_lt_length_iff.2 hm⟩ = ix4 n h w (0 : Fin 1) := by
      funext b; refine Fin.ext ?_
      match b with
      | ⟨0, _⟩ => rfl
      | ⟨1, _⟩ => rfl
      | ⟨2, _⟩ => rfl
      | ⟨3, _⟩ => rfl
    rw [hsi]
    rfl

/-- A corner's start index: the base word r + g * 33 + (b * 33) * 33 of three cells in [0, 31] plus three small
    offsets does not wrap, is not negative (so the negative-index branch is not taken) and is inside the table. -/
theorem corner_index (ir ig ib A B C : BitVec 32) (hr : ir.toNat ≤ 31) (hg : ig.toNat ≤ 31) (hb : ib.toNat ≤ 31)
    (hA : A.toNat ≤ 1) (hB : B.toNat ≤ 33) (hC : C.toNat ≤ 1089) :
    min (Scalar.select
          (IntOp.cmpi .slt (IntOp.addi (IntOp.addi (IntOp.addi (IntOp.addi (IntOp.addi ir (IntOp.muli ig 33#32)) (IntOp.muli (IntOp.muli ib 33#32) 33#32)) A) B) C) 0#32)
          (IntOp.addi (IntOp.addi (IntOp.addi (IntOp.addi (IntOp.addi (IntOp.addi ir (IntOp.muli ig 33#32)) (IntOp.muli (IntOp.muli ib 33#32) 33#32)) A) B) C) 35937#32)
          (IntOp.addi (IntOp.addi (IntOp.addi (IntOp.addi (IntOp.addi ir (IntOp.muli ig 33#32)) (IntOp.muli (IntOp.muli ib 33#32) 33#32)) A) B) C)).toInt.toNat 35936
      = ir.toNat + 33 * ig.toNat + 1089 * ib.toNat + A.toNat + B.toNat + C.toNat := by
  have hw : (IntOp.addi (IntOp.addi (IntOp.addi (IntOp.addi (IntOp.addi ir (IntOp.muli ig 33#32)) (IntOp.muli (IntOp.muli ib 33#32) 33#32)) A) B) C).toNat
      = ir.toNat + 33 * ig.toNat + 1089 * ib.toNat + A.toNat + B.toNat + C.toNat := by
    unfold IntOp.addi IntOp.muli
    simp only [BitVec.toNat_add, BitVec.toNat_mul, BitVec.toNat_ofNat]
    omega
  generalize (IntOp.addi (IntOp.addi (IntOp.addi (IntOp.addi (IntOp.addi ir (IntOp.muli ig 33#32)) (IntOp.muli (IntOp.muli ib 33#32) 33#32)) A) B) C) = W at hw ⊢
  have hlt : W.toNat < 2 ^ 31 := by omega
  have h0 : (0#32 : BitVec 32).toNat < 2 ^ 31 := by decide
  have hc : IntOp.cmpi .slt W 0#32 = 0#1 := by
    apply eq_zero_of_ne_one
    rw [StableHlo.Predicate.slt_iff_toNat hlt h0]
    simp
  rw [hc, select_zero, StableHlo.Predicate.toInt_eq_toNat_of_lt hlt, Int.toNat_natCast, hw]
  omega

/-- The flat position of corner (dr, dg, db) of the cell (ir, ig, ib) has the nodes as its base-33 digits. -/
theorem flat_digits (ir ig ib : BitVec 32) (hr : ir.toNat ≤ 31) (hg : ig.toNat ≤ 31) (hb : ib.toNat ≤ 31)
    (dr dg db : Nat) (hdr : dr ≤ 1) (hdg : dg ≤ 1) (hdb : db ≤ 1) :
    (ir.toNat + 33 * ig.toNat + 1089 * ib.toNat + dr + 33 * dg + 1089 * db) / 1089 % 33 = (node ib db).val
    ∧ (ir.toNat + 33 * ig.toNat + 1089 * ib.toNat + dr + 33 * dg + 1089 * db) / 33 % 33 = (node ig dg).val
    ∧ (ir.toNat + 33 * ig.toNat + 1089 * ib.toNat + dr + 33 * dg + 1089 * db) % 33 = (node ir dr).val
    ∧ ir.toNat + 33 * ig.toNat + 1089 * ib.toNat + dr + 33 * dg + 1089 * db < 35937 := by
  unfold node
  simp only
  generalize ir.toNat = r at *
  generalize ig.toNat = g at *
  generalize ib.toNat = b at *
  refine ⟨?_, ?_, ?_, ?_⟩ <;> omega

end Cert.Lut3D

end
-- ==== Proof.RefValue.lean ====
/-
  The reference program's result, read index by index, is the interpolation `G`.

  A pixel (n, h, w) has three channel values; each stage of the reference is read at the pixel: the quotients by the
  bin width, the cells, the offsets, the base word r + g * 33 + (b * 33) * 33.  Each of the eight corners then adds
  its three offsets to the base word, reads the flattened table there (the word's base-33 digits are the corner's
  nodes), multiplies by the product of the three per-axis weights and adds to the running sum; the sum after the
  eighth corner is `tri`, and the final transposition exchanges the batch and channel coordinates.
-/
import proofs.«164885_j13812614824357_1_alg».proof.Proof.Spec
import proofs.«164885_j13812614824357_1_alg».proof.Proof.Words
import proofs.«164885_j13812614824357_1_alg».proof.Proof.RefGather
import proofs.«164885_j13812614824357_1_alg».proof.Proof.Gen.ReferenceIdeal.Read

noncomputable section

namespace Cert.Lut3D

open Idealize.ShloMosaic Idealize.ShloMosaic.ValueIdx Cert.ReferenceIdeal Cert.ReferenceIdeal.Read

section Stages

/-! ## The three channels of a pixel -/

theorem idx_r (n : Fin 8) (h w : Fin 1024) :
    idx_main_v0 (idx_main_v1 (ix3 n h w)) = ix4 n (0 : Fin 3) h w := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show (0:Nat) = 0; rfl)
  | ⟨2, _⟩ => exact Fin.ext (by show ((n.val * 1024 + h.val) * 1024 + w.val) / 1024 % 1024 = h.val; omega)
  | ⟨3, _⟩ => exact Fin.ext (by show ((n.val * 1024 + h.val) * 1024 + w.val) % 1024 = w.val; omega)

theorem idx_g (n : Fin 8) (h w : Fin 1024) :
    idx_main_v2 (idx_main_v3 (ix3 n h w)) = ix4 n (1 : Fin 3) h w := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show (1 + 0 : Nat) = 1; rfl)
  | ⟨2, _⟩ => exact Fin.ext (by show ((n.val * 1024 + h.val) * 1024 + w.val) / 1024 % 1024 = h.val; omega)
  | ⟨3, _⟩ => exact Fin.ext (by show ((n.val * 1024 + h.val) * 1024 + w.val) % 1024 = w.val; omega)

theorem idx_b (n : Fin 8) (h w : Fin 1024) :
    idx_main_v4 (idx_main_v5 (ix3 n h w)) = ix4 n (2 : Fin 3) h w := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show (2 + 0 : Nat) = 2; rfl)
  | ⟨2, _⟩ => exact Fin.ext (by show ((n.val * 1024 + h.val) * 1024 + w.val) / 1024 % 1024 = h.val; omega)
  | ⟨3, _⟩ => exact Fin.ext (by show ((n.val * 1024 + h.val) * 1024 + w.val) % 1024 = w.val; omega)

variable (x : S8x3x1024x1024.Idx → EReal) (n : Fin 8) (h w : Fin 1024)

/-- The quotient of each channel by the bin width. -/
theorem v7_at : val_main_v7 (F := Ideal) x (ix3 n h w) = scaled (x (ix4 n (0 : Fin 3) h w)) := by
  rw [val_main_v7_apply, val_main_v1_apply, val_main_v0_apply, val_main_v6_apply, idx_r]
  rfl

theorem v9_at : val_main_v9 (F := Ideal) x (ix3 n h w) = scaled (x (ix4 n (1 : Fin 3) h w)) := by
  rw [val_main_v9_apply, val_main_v3_apply, val_main_v2_apply, val_main_v8_apply, idx_g]
  rfl

theorem v11_at : val_main_v11 (F := Ideal) x (ix3 n h w) = scaled (x (ix4 n (2 : Fin 3) h w)) := by
  rw [val_main_v11_apply, val_main_v5_apply, val_main_v4_apply, val_main_v10_apply, idx_b]
  rfl

/-- The cell of each channel. -/
theorem v14_at : val_main_v14 (F := Ideal) x (ix3 n h w) = cell (x (ix4 n (0 : Fin 3) h w)) := by
  rw [val_main_v14_apply, val_main_call0_v4_apply, val_main_call0_v2_apply, val_main_call0_v1_apply,
    val_main_v13_apply, val_main_v12_apply, v7_at]
  rfl

theorem v17_at : val_main_v17 (F := Ideal) x (ix3 n h w) = cell (x (ix4 n (1 : Fin 3) h w)) := by
  rw [val_main_v17_apply, val_main_call1_v4_apply, val_main_call1_v2_apply, val_main_call1_v1_apply,
    val_main_v16_apply, val_main_v15_apply, v9_at]
  rfl

theorem v20_at : val_main_v20 (F := Ideal) x (ix3 n h w) = cell (x (ix4 n (2 : Fin 3) h w)) := by
  rw [val_main_v20_apply, val_main_call2_v4_apply, val_main_call2_v2_apply, val_main_call2_v1_apply,
    val_main_v19_apply, val_main_v18_apply, v11_at]
  rfl

/-- The offset of each channel inside its cell. -/
theorem v22_at : val_main_v22 (F := Ideal) x (ix3 n h w) = frac (x (ix4 n (0 : Fin 3) h w)) := by
  rw [val_main_v22_apply, val_main_v21_apply, v7_at, v14_at]
  rfl

theorem v24_at : val_main_v24 (F := Ideal) x (ix3 n h w) = frac (x (ix4 n (1 : Fin 3) h w)) := by
  rw [val_main_v24_apply, val_main_v23_apply, v9_at, v17_at]
  rfl

theorem v26_at : val_main_v26 (F := Ideal) x (ix3 n h w) = frac (x (ix4 n (2 : Fin 3) h w)) := by
  rw [val_main_v26_apply, val_main_v25_apply, v11_at, v20_at]
  rfl

/-- The base word of the pixel's cell. -/
theorem v35_at : val_main_v35 (F := Ideal) x (ix3 n h w)
    = IntOp.addi (IntOp.addi (cell (x (ix4 n (0 : Fin 3) h w))) (IntOp.muli (cell (x (ix4 n (1 : Fin 3) h w))) 33#32))
        (IntOp.muli (IntOp.muli (cell (x (ix4 n (2 : Fin 3) h w))) 33#32) 33#32) := by
  rw [val_main_v35_apply, val_main_v30_apply, val_main_v34_apply, val_main_v29_apply, val_main_v32_apply,
    val_main_v28_apply, val_main_v31_apply, val_main_v33_apply, v14_at, v17_at, v20_at]
  rfl

/-! ## One corner's table entry -/

/-- A gather of the flattened table whose start index at the pixel is a corner's index word reads the table at the
    corner's three nodes. -/
theorem corner_read (L : S3x33x33x33.Idx → EReal) (idx : IVec S8x1024x1024x1 32)
    (ir ig ib A B C : BitVec 32) (hr : ir.toNat ≤ 31) (hg : ig.toNat ≤ 31) (hb : ib.toNat ≤ 31)
    (dr dg db : Nat) (hdr : dr ≤ 1) (hdg : dg ≤ 1) (hdb : db ≤ 1)
    (hA : A.toNat = dr) (hB : B.toNat = 33 * dg) (hC : C.toNat = 1089 * db)
    (c : Fin 3) (n : Fin 8) (h w : Fin 1024)
    (hidx : idx (ix4 n h w (0 : Fin 1)) = Scalar.select
          (IntOp.cmpi .slt (IntOp.addi (IntOp.addi (IntOp.addi (IntOp.addi (IntOp.addi ir (IntOp.muli ig 33#32)) (IntOp.muli (IntOp.muli ib 33#32) 33#32)) A) B) C) 0#32)
          (IntOp.addi (IntOp.addi (IntOp.addi (IntOp.addi (IntOp.addi (IntOp.addi ir (IntOp.muli ig 33#32)) (IntOp.muli (IntOp.muli ib 33#32) 33#32)) A) B) C) 35937#32)
          (IntOp.addi (IntOp.addi (IntOp.addi (IntOp.addi (IntOp.addi ir (IntOp.muli ig 33#32)) (IntOp.muli (IntOp.muli ib 33#32) 33#32)) A) B) C)) :
    Host.gather gather_S3x35937_S8x1024x1024x1_S3x8x1024x1024_0_1_n_n_1_3_31 (val_main_v27 (F := Ideal) L) idx (ix4 c n h w)
      = L (ix4 c (node ib db) (node ig dg) (node ir dr)) := by
  rw [gather_apply, val_main_v27_apply]
  refine congrArg L ?_
  have hci := corner_index ir ig ib A B C hr hg hb (by omega) (by omega) (by omega)
  rw [← hidx, hA, hB, hC] at hci
  obtain ⟨d1, d2, d3, d4⟩ := flat_digits ir ig ib hr hg hb dr dg db hdr hdg hdb
  generalize ir.toNat + 33 * ig.toNat + 1089 * ib.toNat + dr + 33 * dg + 1089 * db = S at hci d1 d2 d3 d4
  have hc := c.isLt
  funext a
  match a with
  | ⟨0, _⟩ =>
    refine Fin.ext ?_
    show (c.val * 35937 + min (idx (ix4 n h w (0 : Fin 1))).toInt.toNat 35936) / 35937 = c.val
    rw [hci]; omega
  | ⟨1, _⟩ =>
    refine Fin.ext ?_
    show (c.val * 35937 + min (idx (ix4 n h w (0 : Fin 1))).toInt.toNat 35936) / 1089 % 33 = (node ib db).val
    rw [hci, ← d1]; omega
  | ⟨2, _⟩ =>
    refine Fin.ext ?_
    show (c.val * 35937 + min (idx (ix4 n h w (0 : Fin 1))).toInt.toNat 35936) / 33 % 33 = (node ig dg).val
    rw [hci, ← d2]; omega
  | ⟨3, _⟩ =>
    refine Fin.ext ?_
    show (c.val * 35937 + min (idx (ix4 n h w (0 : Fin 1))).toInt.toNat 35936) % 33 = (node ir dr).val
    rw [hci, ← d3]; omega

/-! ## The eight corners, in the order the sum takes them -/

/-! ### Corner 1: offsets (0, 0, 0) on the b, g and r axes -/

theorem idx_px_1 : idx_main_v54 (ix4 n h w (0 : Fin 1)) = ix3 n h w := by
  funext a; match a with | ⟨0, _⟩ => rfl | ⟨1, _⟩ => rfl | ⟨2, _⟩ => rfl

theorem idx_wt_1 (c : Fin 3) : idx_main_v58 (idx_main_v59 (ix4 c n h w)) = ix3 n h w := by
  funext a; match a with | ⟨0, _⟩ => rfl | ⟨1, _⟩ => rfl | ⟨2, _⟩ => rfl

/-- The table entry the corner's gather reads. -/
theorem gath_1 (L : S3x33x33x33.Idx → EReal) (c : Fin 3) :
    val_main_v55 (F := Ideal) L x (ix4 c n h w) = L (ix4 c (node (cell (x (ix4 n (2 : Fin 3) h w))) 0) (node (cell (x (ix4 n (1 : Fin 3) h w))) 0) (node (cell (x (ix4 n (0 : Fin 3) h w))) 0)) := by
  unfold val_main_v55
  refine corner_read L _ (cell (x (ix4 n (0 : Fin 3) h w))) (cell (x (ix4 n (1 : Fin 3) h w))) (cell (x (ix4 n (2 : Fin 3) h w))) 0#32 0#32 0#32
    (cell_le _) (cell_le _) (cell_le _) 0 0 0 (by decide) (by decide) (by decide) rfl rfl rfl c n h w ?_
  rw [val_main_v54_apply, idx_px_1,
    val_main_v53_apply, val_main_v52_apply, val_main_v51_apply, val_main_c_18_apply, val_main_v50_apply, val_main_v49_apply,
    val_main_c_17_apply, val_main_v48_apply, val_main_v47_apply, val_main_c_16_apply, val_main_v46_apply, val_main_v45_apply,
    val_main_c_15_apply, val_main_v44_apply, val_main_v43_apply, val_main_c_14_apply,
    v35_at]

/-- The corner's weight. -/
theorem wt_1 (c : Fin 3) :
    val_main_v59 (F := Ideal) x (ix4 c n h w) = (((one - frac (x (ix4 n (0 : Fin 3) h w))) * (one - frac (x (ix4 n (1 : Fin 3) h w)))) * (one - frac (x (ix4 n (2 : Fin 3) h w)))) := by
  rw [val_main_v59_apply, val_main_v58_apply, idx_wt_1,
    val_main_v57_apply, val_main_v56_apply, val_main_v42_apply, val_main_v41_apply, val_main_cst_13_apply, val_main_v40_apply,
    val_main_v39_apply, val_main_cst_12_apply, val_main_v38_apply, val_main_v37_apply, val_main_cst_11_apply,
    v22_at, v24_at, v26_at]
  rfl

/-- The running sum after the corner. -/
theorem acc_1 (L : S3x33x33x33.Idx → EReal) (c : Fin 3) :
    val_main_v61 (F := Ideal) L x (ix4 c n h w) = (zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0))) := by
  rw [val_main_v61_apply, val_main_v60_apply, val_main_v36_apply, wt_1, gath_1]
  rfl

/-! ### Corner 2: offsets (0, 0, 1) on the b, g and r axes -/

theorem idx_px_2 : idx_main_v73 (ix4 n h w (0 : Fin 1)) = ix3 n h w := by
  funext a; match a with | ⟨0, _⟩ => rfl | ⟨1, _⟩ => rfl | ⟨2, _⟩ => rfl

theorem idx_wt_2 (c : Fin 3) : idx_main_v77 (idx_main_v78 (ix4 c n h w)) = ix3 n h w := by
  funext a; match a with | ⟨0, _⟩ => rfl | ⟨1, _⟩ => rfl | ⟨2, _⟩ => rfl

/-- The table entry the corner's gather reads. -/
theorem gath_2 (L : S3x33x33x33.Idx → EReal) (c : Fin 3) :
    val_main_v74 (F := Ideal) L x (ix4 c n h w) = L (ix4 c (node (cell (x (ix4 n (2 : Fin 3) h w))) 0) (node (cell (x (ix4 n (1 : Fin 3) h w))) 0) (node (cell (x (ix4 n (0 : Fin 3) h w))) 1)) := by
  unfold val_main_v74
  refine corner_read L _ (cell (x (ix4 n (0 : Fin 3) h w))) (cell (x (ix4 n (1 : Fin 3) h w))) (cell (x (ix4 n (2 : Fin 3) h w))) 1#32 0#32 0#32
    (cell_le _) (cell_le _) (cell_le _) 1 0 0 (by decide) (by decide) (by decide) rfl rfl rfl c n h w ?_
  rw [val_main_v73_apply, idx_px_2,
    val_main_v72_apply, val_main_v71_apply, val_main_v70_apply, val_main_c_23_apply, val_main_v69_apply, val_main_v68_apply,
    val_main_c_22_apply, val_main_v67_apply, val_main_v66_apply, val_main_c_21_apply, val_main_v65_apply, val_main_v64_apply,
    val_main_c_20_apply, val_main_v63_apply, val_main_v62_apply, val_main_c_19_apply,
    v35_at]

/-- The corner's weight. -/
theorem wt_2 (c : Fin 3) :
    val_main_v78 (F := Ideal) x (ix4 c n h w) = ((frac (x (ix4 n (0 : Fin 3) h w)) * (one - frac (x (ix4 n (1 : Fin 3) h w)))) * (one - frac (x (ix4 n (2 : Fin 3) h w)))) := by
  rw [val_main_v78_apply, val_main_v77_apply, idx_wt_2,
    val_main_v76_apply, val_main_v75_apply, val_main_v40_apply, val_main_v39_apply, val_main_cst_12_apply, val_main_v38_apply,
    val_main_v37_apply, val_main_cst_11_apply,
    v22_at, v24_at, v26_at]
  rfl

/-- The running sum after the corner. -/
theorem acc_2 (L : S3x33x33x33.Idx → EReal) (c : Fin 3) :
    val_main_v80 (F := Ideal) L x (ix4 c n h w) = ((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1))) := by
  rw [val_main_v80_apply, val_main_v79_apply, acc_1, wt_2, gath_2]
  rfl

/-! ### Corner 3: offsets (0, 1, 0) on the b, g and r axes -/

theorem idx_px_3 : idx_main_v94 (ix4 n h w (0 : Fin 1)) = ix3 n h w := by
  funext a; match a with | ⟨0, _⟩ => rfl | ⟨1, _⟩ => rfl | ⟨2, _⟩ => rfl

theorem idx_wt_3 (c : Fin 3) : idx_main_v98 (idx_main_v99 (ix4 c n h w)) = ix3 n h w := by
  funext a; match a with | ⟨0, _⟩ => rfl | ⟨1, _⟩ => rfl | ⟨2, _⟩ => rfl

/-- The table entry the corner's gather reads. -/
theorem gath_3 (L : S3x33x33x33.Idx → EReal) (c : Fin 3) :
    val_main_v95 (F := Ideal) L x (ix4 c n h w) = L (ix4 c (node (cell (x (ix4 n (2 : Fin 3) h w))) 0) (node (cell (x (ix4 n (1 : Fin 3) h w))) 1) (node (cell (x (ix4 n (0 : Fin 3) h w))) 0)) := by
  unfold val_main_v95
  refine corner_read L _ (cell (x (ix4 n (0 : Fin 3) h w))) (cell (x (ix4 n (1 : Fin 3) h w))) (cell (x (ix4 n (2 : Fin 3) h w))) 0#32 33#32 0#32
    (cell_le _) (cell_le _) (cell_le _) 0 1 0 (by decide) (by decide) (by decide) rfl rfl rfl c n h w ?_
  rw [val_main_v94_apply, idx_px_3,
    val_main_v93_apply, val_main_v92_apply, val_main_v91_apply, val_main_c_29_apply, val_main_v90_apply, val_main_v89_apply,
    val_main_c_28_apply, val_main_v88_apply, val_main_v87_apply, val_main_c_27_apply, val_main_v86_apply, val_main_v85_apply,
    val_main_c_26_apply, val_main_v84_apply, val_main_v83_apply, val_main_c_25_apply,
    v35_at]

/-- The corner's weight. -/
theorem wt_3 (c : Fin 3) :
    val_main_v99 (F := Ideal) x (ix4 c n h w) = (((one - frac (x (ix4 n (0 : Fin 3) h w))) * frac (x (ix4 n (1 : Fin 3) h w))) * (one - frac (x (ix4 n (2 : Fin 3) h w)))) := by
  rw [val_main_v99_apply, val_main_v98_apply, idx_wt_3,
    val_main_v97_apply, val_main_v96_apply, val_main_v82_apply, val_main_v81_apply, val_main_cst_24_apply, val_main_v38_apply,
    val_main_v37_apply, val_main_cst_11_apply,
    v22_at, v24_at, v26_at]
  rfl

/-- The running sum after the corner. -/
theorem acc_3 (L : S3x33x33x33.Idx → EReal) (c : Fin 3) :
    val_main_v101 (F := Ideal) L x (ix4 c n h w) = (((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0))) := by
  rw [val_main_v101_apply, val_main_v100_apply, acc_2, wt_3, gath_3]
  rfl

/-! ### Corner 4: offsets (0, 1, 1) on the b, g and r axes -/

theorem idx_px_4 : idx_main_v113 (ix4 n h w (0 : Fin 1)) = ix3 n h w := by
  funext a; match a with | ⟨0, _⟩ => rfl | ⟨1, _⟩ => rfl | ⟨2, _⟩ => rfl

theorem idx_wt_4 (c : Fin 3) : idx_main_v117 (idx_main_v118 (ix4 c n h w)) = ix3 n h w := by
  funext a; match a with | ⟨0, _⟩ => rfl | ⟨1, _⟩ => rfl | ⟨2, _⟩ => rfl

/-- The table entry the corner's gather reads. -/
theorem gath_4 (L : S3x33x33x33.Idx → EReal) (c : Fin 3) :
    val_main_v114 (F := Ideal) L x (ix4 c n h w) = L (ix4 c (node (cell (x (ix4 n (2 : Fin 3) h w))) 0) (node (cell (x (ix4 n (1 : Fin 3) h w))) 1) (node (cell (x (ix4 n (0 : Fin 3) h w))) 1)) := by
  unfold val_main_v114
  refine corner_read L _ (cell (x (ix4 n (0 : Fin 3) h w))) (cell (x (ix4 n (1 : Fin 3) h w))) (cell (x (ix4 n (2 : Fin 3) h w))) 1#32 33#32 0#32
    (cell_le _) (cell_le _) (cell_le _) 1 1 0 (by decide) (by decide) (by decide) rfl rfl rfl c n h w ?_
  rw [val_main_v113_apply, idx_px_4,
    val_main_v112_apply, val_main_v111_apply, val_main_v110_apply, val_main_c_34_apply, val_main_v109_apply, val_main_v108_apply,
    val_main_c_33_apply, val_main_v107_apply, val_main_v106_apply, val_main_c_32_apply, val_main_v105_apply, val_main_v104_apply,
    val_main_c_31_apply, val_main_v103_apply, val_main_v102_apply, val_main_c_30_apply,
    v35_at]

/-- The corner's weight. -/
theorem wt_4 (c : Fin 3) :
    val_main_v118 (F := Ideal) x (ix4 c n h w) = ((frac (x (ix4 n (0 : Fin 3) h w)) * frac (x (ix4 n (1 : Fin 3) h w))) * (one - frac (x (ix4 n (2 : Fin 3) h w)))) := by
  rw [val_main_v118_apply, val_main_v117_apply, idx_wt_4,
    val_main_v116_apply, val_main_v115_apply, val_main_v38_apply, val_main_v37_apply, val_main_cst_11_apply,
    v22_at, v24_at, v26_at]
  rfl

/-- The running sum after the corner. -/
theorem acc_4 (L : S3x33x33x33.Idx → EReal) (c : Fin 3) :
    val_main_v120 (F := Ideal) L x (ix4 c n h w) = ((((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0)))
      + ((frac (x (ix4 n (0 : Fin 3) h w)) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 1))) := by
  rw [val_main_v120_apply, val_main_v119_apply, acc_3, wt_4, gath_4]
  rfl

/-! ### Corner 5: offsets (1, 0, 0) on the b, g and r axes -/

theorem idx_px_5 : idx_main_v136 (ix4 n h w (0 : Fin 1)) = ix3 n h w := by
  funext a; match a with | ⟨0, _⟩ => rfl | ⟨1, _⟩ => rfl | ⟨2, _⟩ => rfl

theorem idx_wt_5 (c : Fin 3) : idx_main_v140 (idx_main_v141 (ix4 c n h w)) = ix3 n h w := by
  funext a; match a with | ⟨0, _⟩ => rfl | ⟨1, _⟩ => rfl | ⟨2, _⟩ => rfl

/-- The table entry the corner's gather reads. -/
theorem gath_5 (L : S3x33x33x33.Idx → EReal) (c : Fin 3) :
    val_main_v137 (F := Ideal) L x (ix4 c n h w) = L (ix4 c (node (cell (x (ix4 n (2 : Fin 3) h w))) 1) (node (cell (x (ix4 n (1 : Fin 3) h w))) 0) (node (cell (x (ix4 n (0 : Fin 3) h w))) 0)) := by
  unfold val_main_v137
  refine corner_read L _ (cell (x (ix4 n (0 : Fin 3) h w))) (cell (x (ix4 n (1 : Fin 3) h w))) (cell (x (ix4 n (2 : Fin 3) h w))) 0#32 0#32 1089#32
    (cell_le _) (cell_le _) (cell_le _) 0 0 1 (by decide) (by decide) (by decide) rfl rfl rfl c n h w ?_
  rw [val_main_v136_apply, idx_px_5,
    val_main_v135_apply, val_main_v134_apply, val_main_v133_apply, val_main_c_41_apply, val_main_v132_apply, val_main_v131_apply,
    val_main_c_40_apply, val_main_v130_apply, val_main_v129_apply, val_main_c_39_apply, val_main_v128_apply, val_main_v127_apply,
    val_main_c_38_apply, val_main_v126_apply, val_main_v125_apply, val_main_c_37_apply,
    v35_at]

/-- The corner's weight. -/
theorem wt_5 (c : Fin 3) :
    val_main_v141 (F := Ideal) x (ix4 c n h w) = (((one - frac (x (ix4 n (0 : Fin 3) h w))) * (one - frac (x (ix4 n (1 : Fin 3) h w)))) * frac (x (ix4 n (2 : Fin 3) h w))) := by
  rw [val_main_v141_apply, val_main_v140_apply, idx_wt_5,
    val_main_v139_apply, val_main_v138_apply, val_main_v124_apply, val_main_v123_apply, val_main_cst_36_apply, val_main_v122_apply,
    val_main_v121_apply, val_main_cst_35_apply,
    v22_at, v24_at, v26_at]
  rfl

/-- The running sum after the corner. -/
theorem acc_5 (L : S3x33x33x33.Idx → EReal) (c : Fin 3) :
    val_main_v143 (F := Ideal) L x (ix4 c n h w) = (((((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0)))
      + ((frac (x (ix4 n (0 : Fin 3) h w)) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 1)))
      + (((one - frac (x (ix4 n (0 : Fin 3) h w))) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 0))) := by
  rw [val_main_v143_apply, val_main_v142_apply, acc_4, wt_5, gath_5]
  rfl

/-! ### Corner 6: offsets (1, 0, 1) on the b, g and r axes -/

theorem idx_px_6 : idx_main_v155 (ix4 n h w (0 : Fin 1)) = ix3 n h w := by
  funext a; match a with | ⟨0, _⟩ => rfl | ⟨1, _⟩ => rfl | ⟨2, _⟩ => rfl

theorem idx_wt_6 (c : Fin 3) : idx_main_v159 (idx_main_v160 (ix4 c n h w)) = ix3 n h w := by
  funext a; match a with | ⟨0, _⟩ => rfl | ⟨1, _⟩ => rfl | ⟨2, _⟩ => rfl

/-- The table entry the corner's gather reads. -/
theorem gath_6 (L : S3x33x33x33.Idx → EReal) (c : Fin 3) :
    val_main_v156 (F := Ideal) L x (ix4 c n h w) = L (ix4 c (node (cell (x (ix4 n (2 : Fin 3) h w))) 1) (node (cell (x (ix4 n (1 : Fin 3) h w))) 0) (node (cell (x (ix4 n (0 : Fin 3) h w))) 1)) := by
  unfold val_main_v156
  refine corner_read L _ (cell (x (ix4 n (0 : Fin 3) h w))) (cell (x (ix4 n (1 : Fin 3) h w))) (cell (x (ix4 n (2 : Fin 3) h w))) 1#32 0#32 1089#32
    (cell_le _) (cell_le _) (cell_le _) 1 0 1 (by decide) (by decide) (by decide) rfl rfl rfl c n h w ?_
  rw [val_main_v155_apply, idx_px_6,
    val_main_v154_apply, val_main_v153_apply, val_main_v152_apply, val_main_c_46_apply, val_main_v151_apply, val_main_v150_apply,
    val_main_c_45_apply, val_main_v149_apply, val_main_v148_apply, val_main_c_44_apply, val_main_v147_apply, val_main_v146_apply,
    val_main_c_43_apply, val_main_v145_apply, val_main_v144_apply, val_main_c_42_apply,
    v35_at]

/-- The corner's weight. -/
theorem wt_6 (c : Fin 3) :
    val_main_v160 (F := Ideal) x (ix4 c n h w) = ((frac (x (ix4 n (0 : Fin 3) h w)) * (one - frac (x (ix4 n (1 : Fin 3) h w)))) * frac (x (ix4 n (2 : Fin 3) h w))) := by
  rw [val_main_v160_apply, val_main_v159_apply, idx_wt_6,
    val_main_v158_apply, val_main_v157_apply, val_main_v122_apply, val_main_v121_apply, val_main_cst_35_apply,
    v22_at, v24_at, v26_at]
  rfl

/-- The running sum after the corner. -/
theorem acc_6 (L : S3x33x33x33.Idx → EReal) (c : Fin 3) :
    val_main_v162 (F := Ideal) L x (ix4 c n h w) = ((((((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0)))
      + ((frac (x (ix4 n (0 : Fin 3) h w)) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 1)))
      + (((one - frac (x (ix4 n (0 : Fin 3) h w))) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 0)))
      + ((frac (x (ix4 n (0 : Fin 3) h w)) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 1))) := by
  rw [val_main_v162_apply, val_main_v161_apply, acc_5, wt_6, gath_6]
  rfl

/-! ### Corner 7: offsets (1, 1, 0) on the b, g and r axes -/

theorem idx_px_7 : idx_main_v176 (ix4 n h w (0 : Fin 1)) = ix3 n h w := by
  funext a; match a with | ⟨0, _⟩ => rfl | ⟨1, _⟩ => rfl | ⟨2, _⟩ => rfl

theorem idx_wt_7 (c : Fin 3) : idx_main_v180 (idx_main_v181 (ix4 c n h w)) = ix3 n h w := by
  funext a; match a with | ⟨0, _⟩ => rfl | ⟨1, _⟩ => rfl | ⟨2, _⟩ => rfl

/-- The table entry the corner's gather reads. -/
theorem gath_7 (L : S3x33x33x33.Idx → EReal) (c : Fin 3) :
    val_main_v177 (F := Ideal) L x (ix4 c n h w) = L (ix4 c (node (cell (x (ix4 n (2 : Fin 3) h w))) 1) (node (cell (x (ix4 n (1 : Fin 3) h w))) 1) (node (cell (x (ix4 n (0 : Fin 3) h w))) 0)) := by
  unfold val_main_v177
  refine corner_read L _ (cell (x (ix4 n (0 : Fin 3) h w))) (cell (x (ix4 n (1 : Fin 3) h w))) (cell (x (ix4 n (2 : Fin 3) h w))) 0#32 33#32 1089#32
    (cell_le _) (cell_le _) (cell_le _) 0 1 1 (by decide) (by decide) (by decide) rfl rfl rfl c n h w ?_
  rw [val_main_v176_apply, idx_px_7,
    val_main_v175_apply, val_main_v174_apply, val_main_v173_apply, val_main_c_52_apply, val_main_v172_apply, val_main_v171_apply,
    val_main_c_51_apply, val_main_v170_apply, val_main_v169_apply, val_main_c_50_apply, val_main_v168_apply, val_main_v167_apply,
    val_main_c_49_apply, val_main_v166_apply, val_main_v165_apply, val_main_c_48_apply,
    v35_at]

/-- The corner's weight. -/
theorem wt_7 (c : Fin 3) :
    val_main_v181 (F := Ideal) x (ix4 c n h w) = (((one - frac (x (ix4 n (0 : Fin 3) h w))) * frac (x (ix4 n (1 : Fin 3) h w))) * frac (x (ix4 n (2 : Fin 3) h w))) := by
  rw [val_main_v181_apply, val_main_v180_apply, idx_wt_7,
    val_main_v179_apply, val_main_v178_apply, val_main_v164_apply, val_main_v163_apply, val_main_cst_47_apply,
    v22_at, v24_at, v26_at]
  rfl

/-- The running sum after the corner. -/
theorem acc_7 (L : S3x33x33x33.Idx → EReal) (c : Fin 3) :
    val_main_v183 (F := Ideal) L x (ix4 c n h w) = (((((((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0)))
      + ((frac (x (ix4 n (0 : Fin 3) h w)) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 1)))
      + (((one - frac (x (ix4 n (0 : Fin 3) h w))) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 0)))
      + ((frac (x (ix4 n (0 : Fin 3) h w)) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 1)))
      + (((one - frac (x (ix4 n (0 : Fin 3) h w))) * frac (x (ix4 n (1 : Fin 3) h w))) * frac (x (ix4 n (2 : Fin 3) h w))) * L (ix4 c (node (cell (x (ix4 n (2 : Fin 3) h w))) 1) (node (cell (x (ix4 n (1 : Fin 3) h w))) 1) (node (cell (x (ix4 n (0 : Fin 3) h w))) 0))) := by
  rw [val_main_v183_apply, val_main_v182_apply, acc_6, wt_7, gath_7]
  rfl

/-! ### Corner 8: offsets (1, 1, 1) on the b, g and r axes -/

theorem idx_px_8 : idx_main_v195 (ix4 n h w (0 : Fin 1)) = ix3 n h w := by
  funext a; match a with | ⟨0, _⟩ => rfl | ⟨1, _⟩ => rfl | ⟨2, _⟩ => rfl

theorem idx_wt_8 (c : Fin 3) : idx_main_v199 (idx_main_v200 (ix4 c n h w)) = ix3 n h w := by
  funext a; match a with | ⟨0, _⟩ => rfl | ⟨1, _⟩ => rfl | ⟨2, _⟩ => rfl

/-- The table entry the corner's gather reads. -/
theorem gath_8 (L : S3x33x33x33.Idx → EReal) (c : Fin 3) :
    val_main_v196 (F := Ideal) L x (ix4 c n h w) = L (ix4 c (node (cell (x (ix4 n (2 : Fin 3) h w))) 1) (node (cell (x (ix4 n (1 : Fin 3) h w))) 1) (node (cell (x (ix4 n (0 : Fin 3) h w))) 1)) := by
  unfold val_main_v196
  refine corner_read L _ (cell (x (ix4 n (0 : Fin 3) h w))) (cell (x (ix4 n (1 : Fin 3) h w))) (cell (x (ix4 n (2 : Fin 3) h w))) 1#32 33#32 1089#32
    (cell_le _) (cell_le _) (cell_le _) 1 1 1 (by decide) (by decide) (by decide) rfl rfl rfl c n h w ?_
  rw [val_main_v195_apply, idx_px_8,
    val_main_v194_apply, val_main_v193_apply, val_main_v192_apply, val_main_c_57_apply, val_main_v191_apply, val_main_v190_apply,
    val_main_c_56_apply, val_main_v189_apply, val_main_v188_apply, val_main_c_55_apply, val_main_v187_apply, val_main_v186_apply,
    val_main_c_54_apply, val_main_v185_apply, val_main_v184_apply, val_main_c_53_apply,
    v35_at]

/-- The corner's weight. -/
theorem wt_8 (c : Fin 3) :
    val_main_v200 (F := Ideal) x (ix4 c n h w) = ((frac (x (ix4 n (0 : Fin 3) h w)) * frac (x (ix4 n (1 : Fin 3) h w))) * frac (x (ix4 n (2 : Fin 3) h w))) := by
  rw [val_main_v200_apply, val_main_v199_apply, idx_wt_8,
    val_main_v198_apply, val_main_v197_apply,
    v22_at, v24_at, v26_at]
  rfl

/-- The running sum after the corner. -/
theorem acc_8 (L : S3x33x33x33.Idx → EReal) (c : Fin 3) :
    val_main_v202 (F := Ideal) L x (ix4 c n h w) = ((((((((zero
      + (((one - frac (x (ix4 n (0 : Fin 3) h w))) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 0)))
      + ((frac (x (ix4 n (0 : Fin 3) h w)) * (one - frac (x (ix4 n (1 : Fin 3) h w)))) * (one - frac (x (ix4 n (2 : Fin 3) h w)))) * L (ix4 c (node (cell (x (ix4 n (2 : Fin 3) h w))) 0) (node (cell (x (ix4 n (1 : Fin 3) h w))) 0) (node (cell (x (ix4 n (0 : Fin 3) h w))) 1)))
      + (((one - frac (x (ix4 n (0 : Fin 3) h w))) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 0)))
      + ((frac (x (ix4 n (0 : Fin 3) h w)) * frac (x (ix4 n (1 : Fin 3) h w))) * (one - frac (x (ix4 n (2 : Fin 3) h w)))) * L (ix4 c (node (cell (x (ix4 n (2 : Fin 3) h w))) 0) (node (cell (x (ix4 n (1 : Fin 3) h w))) 1) (node (cell (x (ix4 n (0 : Fin 3) h w))) 1)))
      + (((one - frac (x (ix4 n (0 : Fin 3) h w))) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 0)))
      + ((frac (x (ix4 n (0 : Fin 3) h w)) * (one - frac (x (ix4 n (1 : Fin 3) h w)))) * frac (x (ix4 n (2 : Fin 3) h w))) * L (ix4 c (node (cell (x (ix4 n (2 : Fin 3) h w))) 1) (node (cell (x (ix4 n (1 : Fin 3) h w))) 0) (node (cell (x (ix4 n (0 : Fin 3) h w))) 1)))
      + (((one - frac (x (ix4 n (0 : Fin 3) h w))) * frac (x (ix4 n (1 : Fin 3) h w))) * frac (x (ix4 n (2 : Fin 3) h w))) * L (ix4 c (node (cell (x (ix4 n (2 : Fin 3) h w))) 1) (node (cell (x (ix4 n (1 : Fin 3) h w))) 1) (node (cell (x (ix4 n (0 : Fin 3) h w))) 0)))
      + ((frac (x (ix4 n (0 : Fin 3) h w)) * frac (x (ix4 n (1 : Fin 3) h w))) * frac (x (ix4 n (2 : Fin 3) h w))) * L (ix4 c (node (cell (x (ix4 n (2 : Fin 3) h w))) 1) (node (cell (x (ix4 n (1 : Fin 3) h w))) 1) (node (cell (x (ix4 n (0 : Fin 3) h w))) 1))) := by
  rw [val_main_v202_apply, val_main_v201_apply, acc_7, wt_8, gath_8]
  rfl

/-! ## The whole result -/

/-- The transposition reads the sum at the exchanged batch and channel coordinates. -/
theorem idx_tr (c : Fin 3) : idx_main_v203 (ix4 n c h w) = ix4 c n h w := by
  funext a; match a with | ⟨0, _⟩ => rfl | ⟨1, _⟩ => rfl | ⟨2, _⟩ => rfl | ⟨3, _⟩ => rfl

end Stages

theorem ref_eq (L : Cert.ReferenceIdeal.S3x33x33x33.Idx → EReal) (x : Cert.ReferenceIdeal.S8x3x1024x1024.Idx → EReal) :
    Cert.ReferenceIdeal.Read.val_main_v203 (F := Ideal) L x = G L x := by
  funext j
  obtain ⟨n, c, h, w, rfl⟩ : ∃ n c h w, j = ix4 n c h w := ⟨j 0, j 1, j 2, j 3, eq_ix4 j⟩
  rw [val_main_v203_apply, idx_tr, acc_8]
  rfl

end Cert.Lut3D

end
-- ==== Proof.Alg.lean ====
/-
  The algebra that joins the two programs: a weighted sum over a whole axis whose weights vanish off two adjacent
  nodes is the two-term sum at those nodes, and three such sums nested are, over the reals, the eight-corner sum.
-/
import proofs.«164885_j13812614824357_1_alg».proof.Proof.Spec
import proofs.«164885_j13812614824357_1_alg».proof.Proof.Words

noncomputable section

namespace Cert.Lut3D

open Idealize.ShloMosaic

/-- The weight of a node, by its position relative to the cell. -/
theorem hot_eq (id : BitVec 32) (hid : id.toNat ≤ 31) (d : EReal) (k : Fin 33) :
    hot id d k = if k.val = id.toNat then one - d else if k.val = id.toNat + 1 then d else 0 := by
  have hk := k.isLt
  have h1 : (BitVec.ofNat 32 k.val = id) ↔ k.val = id.toNat := by
    rw [← BitVec.toNat_inj, BitVec.toNat_ofNat]; omega
  have h2 : (BitVec.ofNat 32 k.val = id + 1#32) ↔ k.val = id.toNat + 1 := by
    rw [← BitVec.toNat_inj, BitVec.toNat_ofNat, BitVec.toNat_add]
    simp only [BitVec.toNat_ofNat]; omega
  have c1 : (IntOp.cmpi .eq (BitVec.ofNat 32 k.val) id = 1) ↔ k.val = id.toNat :=
    StableHlo.Predicate.cmpi_eq_iff.trans h1
  have c2 : (IntOp.cmpi .eq (BitVec.ofNat 32 k.val) (id + 1#32) = 1) ↔ k.val = id.toNat + 1 :=
    StableHlo.Predicate.cmpi_eq_iff.trans h2
  unfold hot Scalar.select IntOp.addi
  simp only [c1, c2, zero_eq]

/-- Only the cell's node and the next one carry weight. -/
theorem sum_hot (id : BitVec 32) (hid : id.toNat ≤ 31) (d : EReal) (f : Fin 33 → EReal) :
    ∑ k : Fin 33, hot id d k * f k = (one - d) * f (node id 0) + d * f (node id 1) := by
  have h0 : (node id 0).val = id.toNat := by
    show (id.toNat + 0) % 33 = id.toNat
    omega
  have h1 : (node id 1).val = id.toNat + 1 := by
    show (id.toNat + 1) % 33 = id.toNat + 1
    omega
  rw [Fintype.sum_eq_add (node id 0) (node id 1)]
  · rw [hot_eq id hid, hot_eq id hid, if_pos h0, if_neg (by omega), if_pos h1]
  · intro h; rw [h] at h0; omega
  · rintro k ⟨hk0, hk1⟩
    rw [hot_eq id hid, if_neg, if_neg, zero_mul]
    · intro h; exact hk1 (Fin.ext (h.trans h1.symm))
    · intro h; exact hk0 (Fin.ext (h.trans h0.symm))

/-- The nested sums are the eight-corner sum when every table entry and every channel value is real
    (distributing a weight over a sum needs finiteness on the extended reals). -/
theorem nested_eq_tri (T : Fin 33 → Fin 33 → Fin 33 → EReal) (vb vg vr : EReal)
    (hT : ∀ b g r, ∃ t : ℝ, T b g r = (t : EReal))
    (hb : ∃ t : ℝ, vb = (t : EReal)) (hg : ∃ t : ℝ, vg = (t : EReal)) (hr : ∃ t : ℝ, vr = (t : EReal)) :
    nested T vb vg vr = tri T vb vg vr := by
  obtain ⟨a, ha⟩ := frac_real hr
  obtain ⟨b, hb'⟩ := frac_real hg
  obtain ⟨c, hc⟩ := frac_real hb
  obtain ⟨t000, h000⟩ := hT (node (cell vb) 0) (node (cell vg) 0) (node (cell vr) 0)
  obtain ⟨t001, h001⟩ := hT (node (cell vb) 0) (node (cell vg) 0) (node (cell vr) 1)
  obtain ⟨t010, h010⟩ := hT (node (cell vb) 0) (node (cell vg) 1) (node (cell vr) 0)
  obtain ⟨t011, h011⟩ := hT (node (cell vb) 0) (node (cell vg) 1) (node (cell vr) 1)
  obtain ⟨t100, h100⟩ := hT (node (cell vb) 1) (node (cell vg) 0) (node (cell vr) 0)
  obtain ⟨t101, h101⟩ := hT (node (cell vb) 1) (node (cell vg) 0) (node (cell vr) 1)
  obtain ⟨t110, h110⟩ := hT (node (cell vb) 1) (node (cell vg) 1) (node (cell vr) 0)
  obtain ⟨t111, h111⟩ := hT (node (cell vb) 1) (node (cell vg) 1) (node (cell vr) 1)
  unfold nested tri
  simp only [sum_hot _ (cell_le _)]
  rw [h000, h001, h010, h011, h100, h101, h110, h111, ha, hb', hc, one_eq, zero_eq, ← EReal.coe_zero]
  simp only [← EReal.coe_mul, ← EReal.coe_add, ← EReal.coe_sub]
  exact congrArg _ (by ring)

end Cert.Lut3D

end
-- ==== Proof.KernelPayload.lean ====
/-
  What the kernel body leaves in its output block, read at one element: the nested weighted sums.

  The block of 2048 pixels holds the r, g, b values in rows 0, 1, 2. Per pixel and per axis the body divides the value by
  the bin width, takes the clamped floor as the cell word and the difference as the offset, and spreads them over the 33
  lattice nodes of the axis as a row of weights: one minus the offset at the cell, the offset at the next node, zero
  elsewhere. For each output channel c it contracts the b weights with the slab of the re-laid table whose columns are
  c * 1089 + 33 g + r, views the result by (g, r), multiplies by the g weights and sums over g, multiplies by the r
  weights and sums over r. The three channels are laid side by side along the channel axis of the block.
-/
import proofs.«164885_j13812614824357_1_alg».proof.Proof.Spec
import proofs.«164885_j13812614824357_1_alg».proof.Proof.Gen.KernelIdeal.Frame
import Idealize.ShloMosaic.Lib.Pipeline.Value
import Idealize.ShloMosaic.Lib.ValueLayout
import Idealize.ShloMosaic.PureOps.Ideal.Laws

noncomputable section

namespace Cert.Lut3D

open Idealize.ShloMosaic Idealize.ShloMosaic.ValueIdx Cert.KernelIdeal

namespace Payload

open Cert.KernelIdeal.Gen

/-! ## The three rows of the pixel block -/

/-- Row 0 of the pixel block, loaded as a [1,1,2048] vector, read at pixel p. -/
theorem ld_row0 (x0 : Vec Ideal S1x3x2048 .f32) (p : Fin 2048) :
    View.ld x0 r0_0 (ix3 (0 : Fin 1) (0 : Fin 1) p) = x0 (ix3 (0 : Fin 1) (0 : Fin 3) p) :=
  congrArg x0 (funext fun a => Fin.ext (by
    match a with
    | ⟨0, _⟩ => rfl
    | ⟨1, _⟩ => rfl
    | ⟨2, _⟩ => show 0 + 1 * p.val = p.val; omega))

/-- Row 1 likewise. -/
theorem ld_row1 (x0 : Vec Ideal S1x3x2048 .f32) (p : Fin 2048) :
    View.ld x0 r0_1 (ix3 (0 : Fin 1) (0 : Fin 1) p) = x0 (ix3 (0 : Fin 1) (1 : Fin 3) p) :=
  congrArg x0 (funext fun a => Fin.ext (by
    match a with
    | ⟨0, _⟩ => rfl
    | ⟨1, _⟩ => rfl
    | ⟨2, _⟩ => show 0 + 1 * p.val = p.val; omega))

/-- Row 2 likewise. -/
theorem ld_row2 (x0 : Vec Ideal S1x3x2048 .f32) (p : Fin 2048) :
    View.ld x0 r0_2 (ix3 (0 : Fin 1) (0 : Fin 1) p) = x0 (ix3 (0 : Fin 1) (2 : Fin 3) p) :=
  congrArg x0 (funext fun a => Fin.ext (by
    match a with
    | ⟨0, _⟩ => rfl
    | ⟨1, _⟩ => rfl
    | ⟨2, _⟩ => show 0 + 1 * p.val = p.val; omega))

/-- A [1,1,2048] vector viewed as [2048] reads (0,0,p) at p. -/
theorem cast_row (v0 : Vec Ideal S1x1x2048 .f32) (h : S1x1x2048.ShapeCasts S2048) (p : Fin 2048) :
    shapeCast S2048 v0 h (ix1 p) = v0 (ix3 (0 : Fin 1) (0 : Fin 1) p) :=
  shapeCast_apply v0 h (ix1 p) (ix3 (0 : Fin 1) (0 : Fin 1) p) (by
    rw [Shape.rowMajor_val_three, Shape.rowMajor_val_one]
    show (0 * 1 + 0) * 2048 + p.val = p.val
    omega)

/-! ## The r row: the value in units of the bin width, its cell word, its offset -/

theorem pay2_apply (v0 : Vec Ideal S1x1x2048 .f32) (p : Fin 2048) :
    k0_pay2 (F := Ideal) v0 (ix1 p) = scaled (v0 (ix3 (0 : Fin 1) (0 : Fin 1) p)) := by
  unfold k0_pay2 scaled binW
  exact congrArg (fun t => Ideal.div t (Ideal.ofBits .f32 0x3D000347#32)) (cast_row v0 _ p)

theorem pay3_apply (v0 : Vec Ideal S1x1x2048 .f32) (p : Fin 2048) :
    k0_pay3 (F := Ideal) v0 (ix1 p) = cell (v0 (ix3 (0 : Fin 1) (0 : Fin 1) p)) := by
  unfold k0_pay3 cell
  exact congrArg (fun t => IntOp.minsi 31#32 (IntOp.maxsi 0#32 (Ideal.fptosi 32 (Ideal.liftRound Int.floor t)))) (pay2_apply v0 p)

theorem pay4_apply (v0 : Vec Ideal S1x1x2048 .f32) (p : Fin 2048) :
    k0_pay4 (F := Ideal) v0 (ix1 p) = frac (v0 (ix3 (0 : Fin 1) (0 : Fin 1) p)) := by
  unfold k0_pay4 frac
  show k0_pay2 (F := Ideal) v0 (ix1 p) - (((k0_pay3 (F := Ideal) v0 (ix1 p)).toInt : ℝ) : EReal) = _
  rw [pay2_apply, pay3_apply]

/-! ## The rows of weights over the 33 lattice nodes -/

section Layout
variable {α : Type}

/-- A [2048] vector viewed as a [2048,1] column reads p at (p, u). -/
theorem cast_col (v : S2048.Idx → α) (h : S2048.ShapeCasts S2048x1) (p : Fin 2048) (u : Fin 1) :
    shapeCast S2048x1 v h (ix2 p u) = v (ix1 p) :=
  shapeCast_apply v h (ix2 p u) (ix1 p) (by
    have hu : u.val = 0 := by omega
    rw [Shape.rowMajor_val_two, Shape.rowMajor_val_one]
    show p.val = p.val * 1 + u.val
    omega)

/-- A [2048,1] column broadcast along 33 lanes reads (p, 0) at (p, k). -/
theorem bcast_col (v : S2048x1.Idx → α) (h : S2048x1.Broadcasts S2048x33) (p : Fin 2048) (k : Fin 33) :
    broadcastTo S2048x33 v h (ix2 p k) = v (ix2 p (0 : Fin 1)) :=
  broadcastTo_apply v h (ix2 p k) (ix2 p (0 : Fin 1)) (fun a => by
    match a with
    | ⟨0, _⟩ => rfl
    | ⟨1, _⟩ => rfl)

end Layout

/-- The lane index along axis 1 of a [2048,33] vector. -/
theorem iota_col (h : S2048x33.Iotas .tc 32 [1]) (p : Fin 2048) (k : Fin 33) :
    iota .tc S2048x33 32 [1] h (ix2 p k) = BitVec.ofNat 32 k.val :=
  iota_single_apply .tc S2048x33 32 1 h (ix2 p k)

theorem cmpi_apply' {s : Shape} {w : Nat} (pr : CmpIPredicate) (a b : IVec s w) (i : s.Idx) :
    cmpi pr a b i = IntOp.cmpi pr (a i) (b i) := rfl

theorem addi_apply' {s : Shape} {w : Nat} (a b : IVec s w) (i : s.Idx) : addi a b i = IntOp.addi (a i) (b i) := rfl

/-- The g-axis weights at (p, k): the one-hot pair of the cell word and offset of pixel p. -/
theorem pay13_apply (v23 : IVec S2048 32) (v25 : FVec Ideal S2048 .f32) (p : Fin 2048) (k : Fin 33) :
    k0_pay13 (F := Ideal) v23 v25 (iota .tc S2048x33 32 [1] Facts₀.iota_S2048x33_d1_w32) (ix2 p k)
      = hot (v23 (ix1 p)) (v25 (ix1 p)) k := by
  unfold k0_pay13 hot one zero
  simp only [select_apply, cmpi_apply', addi_apply', subf_apply, broadcast_apply, bcast_col, cast_col, shapeCast_self]
  first | rw [iota_col] | rw [iota_single_apply] | fail "iota"
  rfl

/-- The r-axis weights at (p, k). -/
theorem pay14_apply (v13 : IVec S2048 32) (v15 : FVec Ideal S2048 .f32) (p : Fin 2048) (k : Fin 33) :
    k0_pay14 (F := Ideal) v13 v15 (iota .tc S2048x33 32 [1] Facts₀.iota_S2048x33_d1_w32) (ix2 p k)
      = hot (v13 (ix1 p)) (v15 (ix1 p)) k := by
  unfold k0_pay14 hot one zero
  simp only [select_apply, cmpi_apply', addi_apply', subf_apply, broadcast_apply, bcast_col, cast_col, shapeCast_self]
  first | rw [iota_col] | rw [iota_single_apply] | fail "iota"
  rfl

/-- The b-axis weights at (p, k), over the column forms of the cell word and offset. -/
theorem pay15_apply (v37 : IVec S2048x1 32) (v38 : FVec Ideal S2048x1 .f32) (v39 : IVec S2048x33 32) (p : Fin 2048) (k : Fin 33)
    (h39 : v39 (ix2 p k) = v37 (ix2 p (0 : Fin 1))) :
    k0_pay15 (F := Ideal) (iota .tc S2048x33 32 [1] Facts₀.iota_S2048x33_d1_w32) v37 v38 v39 (ix2 p k)
      = hot (v37 (ix2 p (0 : Fin 1))) (v38 (ix2 p (0 : Fin 1))) k := by
  unfold k0_pay15 hot one zero
  simp only [truncf_apply, select_apply, cmpi_apply', addi_apply', subf_apply, broadcast_apply, bcast_col, cast_col, shapeCast_self, h39]
  first | rw [iota_col] | rw [iota_single_apply] | fail "iota"
  rfl

/-! The contraction of the b-axis weights with a slab of the table. -/

theorem lhs_ax0 (j : S2048x1089.Idx) (k : dot_S2048x33_S33x1089_S2048x1089_1_0_0_1_n_n.contr.Idx) :
    (dot_S2048x33_S33x1089_S2048x1089_1_0_0_1_n_n.lhsIdx j k 0 : ℕ) = j 0 := by
  simp [DotDims.lhsIdx, dot_S2048x33_S33x1089_S2048x1089_1_0_0_1_n_n]; rfl
theorem lhs_ax1 (j : S2048x1089.Idx) (k : dot_S2048x33_S33x1089_S2048x1089_1_0_0_1_n_n.contr.Idx) :
    (dot_S2048x33_S33x1089_S2048x1089_1_0_0_1_n_n.lhsIdx j k 1 : ℕ) = k ⟨0, by decide⟩ := by
  simp [DotDims.lhsIdx, dot_S2048x33_S33x1089_S2048x1089_1_0_0_1_n_n]; rfl
theorem rhs_ax0 (j : S2048x1089.Idx) (k : dot_S2048x33_S33x1089_S2048x1089_1_0_0_1_n_n.contr.Idx) :
    (dot_S2048x33_S33x1089_S2048x1089_1_0_0_1_n_n.rhsIdx j k 0 : ℕ) = k ⟨0, by decide⟩ := by
  simp [DotDims.rhsIdx, dot_S2048x33_S33x1089_S2048x1089_1_0_0_1_n_n]; rfl
theorem rhs_ax1 (j : S2048x1089.Idx) (k : dot_S2048x33_S33x1089_S2048x1089_1_0_0_1_n_n.contr.Idx) :
    (dot_S2048x33_S33x1089_S2048x1089_1_0_0_1_n_n.rhsIdx j k 1 : ℕ) = j 1 := by
  simp [DotDims.rhsIdx, dot_S2048x33_S33x1089_S2048x1089_1_0_0_1_n_n]; rfl

/-- The product into a zero accumulator at (p, q): the sum over the 33 lattice nodes b. -/
theorem mm_apply (W : FVec Ideal S2048x33 .bf16) (R : FVec Ideal S33x1089 .bf16) (p : Fin 2048) (q : Fin 1089) :
    matmul dot_S2048x33_S33x1089_S2048x1089_1_0_0_1_n_n none W R (constant (F := Ideal) S2048x1089 .f32 0x00000000#32) (ix2 p q)
      = ∑ b : Fin 33, W (ix2 p b) * R (ix2 b q) := by
  refine (Ideal.matmul_constant_zero_apply dot_S2048x33_S33x1089_S2048x1089_1_0_0_1_n_n none W R (ix2 p q)).trans ?_
  rw [← Equiv.sum_comp (contrEquiv1 dot_S2048x33_S33x1089_S2048x1089_1_0_0_1_n_n 33 rfl rfl).symm]
  refine Finset.sum_congr rfl fun b _ => ?_
  have hb := contrEquiv1_symm_val dot_S2048x33_S33x1089_S2048x1089_1_0_0_1_n_n 33 rfl rfl b
  have e1 : dot_S2048x33_S33x1089_S2048x1089_1_0_0_1_n_n.lhsIdx (ix2 p q)
      ((contrEquiv1 dot_S2048x33_S33x1089_S2048x1089_1_0_0_1_n_n 33 rfl rfl).symm b) = ix2 p b :=
    funext fun a => Fin.ext (by
      match a with
      | ⟨0, _⟩ => exact lhs_ax0 _ _
      | ⟨1, _⟩ => exact (lhs_ax1 _ _).trans hb)
  have e2 : dot_S2048x33_S33x1089_S2048x1089_1_0_0_1_n_n.rhsIdx (ix2 p q)
      ((contrEquiv1 dot_S2048x33_S33x1089_S2048x1089_1_0_0_1_n_n 33 rfl rfl).symm b) = ix2 b q :=
    funext fun a => Fin.ext (by
      match a with
      | ⟨0, _⟩ => exact (rhs_ax0 _ _).trans hb
      | ⟨1, _⟩ => exact rhs_ax1 _ _)
  rw [e1, e2]

section Layout3
variable {α : Type}

/-- A [2048,1089] matrix viewed as [2048,33,33] reads (p, 33 g + r) at (p, g, r). -/
theorem cast_gr (v : S2048x1089.Idx → α) (h : S2048x1089.ShapeCasts S2048x33x33) (p : Fin 2048) (g r : Fin 33) (q : Fin 1089)
    (hq : q.val = g.val * 33 + r.val) : shapeCast S2048x33x33 v h (ix3 p g r) = v (ix2 p q) :=
  shapeCast_apply v h (ix3 p g r) (ix2 p q) (by
    rw [Shape.rowMajor_val_two, Shape.rowMajor_val_three]
    show p.val * 1089 + q.val = (p.val * 33 + g.val) * 33 + r.val
    omega)

/-- A [2048,33] matrix viewed as [2048,33,1] reads (p, g) at (p, g, u). -/
theorem cast_g1 (v : S2048x33.Idx → α) (h : S2048x33.ShapeCasts S2048x33x1) (p : Fin 2048) (g : Fin 33) (u : Fin 1) :
    shapeCast S2048x33x1 v h (ix3 p g u) = v (ix2 p g) :=
  shapeCast_apply v h (ix3 p g u) (ix2 p g) (by
    have hu : u.val = 0 := by omega
    rw [Shape.rowMajor_val_two, Shape.rowMajor_val_three]
    show p.val * 33 + g.val = (p.val * 33 + g.val) * 1 + u.val
    omega)

/-- A [2048,33,1] array broadcast along the last axis reads (p, g, 0) at (p, g, r). -/
theorem bcast_gr (v : S2048x33x1.Idx → α) (h : S2048x33x1.Broadcasts S2048x33x33) (p : Fin 2048) (g r : Fin 33) :
    broadcastTo S2048x33x33 v h (ix3 p g r) = v (ix3 p g (0 : Fin 1)) :=
  broadcastTo_apply v h (ix3 p g r) (ix3 p g (0 : Fin 1)) (fun a => by
    match a with
    | ⟨0, _⟩ => rfl
    | ⟨1, _⟩ => rfl
    | ⟨2, _⟩ => rfl)

end Layout3

/-- The sum over axis 1 of a [2048,33,33] array at (p, r): over the middle coordinate g. -/
theorem sum_g (src : FVec Ideal S2048x33x33 .f32) (h : S2048x33x33.Reduces [1] S2048x33) (p : Fin 2048) (r : Fin 33) :
    multiReduction (F := Ideal) .add [1] S2048x33 src 0x00000000#32 h (.inl rfl) rfl (ix2 p r) = ∑ g : Fin 33, src (ix3 p g r) := by
  refine (Ideal.multiReduction_add_single src 0x00000000#32 h (.inl rfl) rfl (ix2 p r)).trans ?_
  show (∑ g : Fin 33, src (h.lift (ix2 p r) g)) = _
  refine Finset.sum_congr rfl fun g _ => congrArg src (funext fun a => Fin.ext ?_)
  match a with
  | ⟨0, _⟩ => rfl
  | ⟨1, _⟩ => rfl
  | ⟨2, _⟩ => rfl

/-- The sum over axis 1 of a [2048,33] array at p. -/
theorem sum_r (src : FVec Ideal S2048x33 .f32) (h : S2048x33.Reduces [1] S2048) (p : Fin 2048) :
    multiReduction (F := Ideal) .add [1] S2048 src 0x00000000#32 h (.inl rfl) rfl (ix1 p) = ∑ r : Fin 33, src (ix2 p r) := by
  refine (Ideal.multiReduction_add_single src 0x00000000#32 h (.inl rfl) rfl (ix1 p)).trans ?_
  show (∑ r : Fin 33, src (h.lift (ix1 p) r)) = _
  refine Finset.sum_congr rfl fun r _ => congrArg src (funext fun a => Fin.ext ?_)
  match a with
  | ⟨0, _⟩ => rfl
  | ⟨1, _⟩ => rfl

/-- One output channel at pixel p: the slab of the table from column o, contracted with the b weights, viewed by (g, r),
    weighted and summed over g, then weighted and summed over r. -/
theorem chan_apply (Wg Wr : FVec Ideal S2048x33 .f32) (Wb : FVec Ideal S2048x33 .bf16) (T : FVec Ideal S33x3267 .bf16)
    (o : Nat) (hs : S33x3267.Slices ![0, o] S33x1089) (cl : Fin 33 → Fin 33 → Fin 3267)
    (hcl : ∀ g r, (cl g r).val = o + (g.val * 33 + r.val)) (p : Fin 2048) :
    multiReduction (F := Ideal) .add [1] S2048
        (mulf Wr (multiReduction (F := Ideal) .add [1] S2048x33
          (mulf (broadcastTo S2048x33x33 (shapeCast S2048x33x1 Wg Facts₀.shapeCasts_S2048x33_S2048x33x1) Facts₀.broadcasts_S2048x33x1_S2048x33x33)
            (shapeCast S2048x33x33
              (matmul dot_S2048x33_S33x1089_S2048x1089_1_0_0_1_n_n none Wb (extractStridedSlice S33x1089 ![0, o] T hs)
                (constant (F := Ideal) S2048x1089 .f32 0x00000000#32))
              Facts₀.shapeCasts_S2048x1089_S2048x33x33))
          0x00000000#32 Facts₀.reduces_S2048x33x33_S2048x33 (.inl rfl) rfl))
        0x00000000#32 Facts₀.reduces_S2048x33_S2048 (.inl rfl) rfl (ix1 p)
      = ∑ r : Fin 33, Wr (ix2 p r) * ∑ g : Fin 33, Wg (ix2 p g) * ∑ b : Fin 33, Wb (ix2 p b) * T (ix2 b (cl g r)) := by
  refine (sum_r _ _ p).trans ?_
  refine Finset.sum_congr rfl fun r _ => ?_
  refine (mulf_apply _ _ _).trans ?_
  refine congrArg (fun t => Wr (ix2 p r) * t) ?_
  refine (sum_g _ _ p r).trans ?_
  refine Finset.sum_congr rfl fun g _ => ?_
  refine (mulf_apply _ _ _).trans ?_
  have hq : g.val * 33 + r.val < 1089 := by have := g.isLt; have := r.isLt; omega
  have eA : broadcastTo S2048x33x33 (shapeCast S2048x33x1 Wg Facts₀.shapeCasts_S2048x33_S2048x33x1) Facts₀.broadcasts_S2048x33x1_S2048x33x33 (ix3 p g r)
      = Wg (ix2 p g) := (bcast_gr _ _ p g r).trans (cast_g1 _ _ p g 0)
  have eB : shapeCast S2048x33x33
        (matmul dot_S2048x33_S33x1089_S2048x1089_1_0_0_1_n_n none Wb (extractStridedSlice S33x1089 ![0, o] T hs)
          (constant (F := Ideal) S2048x1089 .f32 0x00000000#32))
        Facts₀.shapeCasts_S2048x1089_S2048x33x33 (ix3 p g r)
      = ∑ b : Fin 33, Wb (ix2 p b) * T (ix2 b (cl g r)) := by
    refine (cast_gr _ _ p g r ⟨g.val * 33 + r.val, hq⟩ rfl).trans ?_
    refine (mm_apply _ _ p _).trans ?_
    refine Finset.sum_congr rfl fun b _ => congrArg (fun t => Wb (ix2 p b) * t) ?_
    exact slice2_axis1_apply o T hs b ⟨g.val * 33 + r.val, hq⟩ (cl g r) (hcl g r)
  rw [eA, eB]

/-! The g row (payloads 5, 6, 7) and the b row (payloads 8 to 12): the same arithmetic as the r row. -/

theorem pay5_apply (v0 : Vec Ideal S1x1x2048 .f32) (p : Fin 2048) :
    k0_pay5 (F := Ideal) v0 (ix1 p) = scaled (v0 (ix3 (0 : Fin 1) (0 : Fin 1) p)) := by
  unfold k0_pay5 scaled binW
  exact congrArg (fun t => Ideal.div t (Ideal.ofBits .f32 0x3D000347#32)) (cast_row v0 _ p)

theorem pay6_apply (v0 : Vec Ideal S1x1x2048 .f32) (p : Fin 2048) :
    k0_pay6 (F := Ideal) v0 (ix1 p) = cell (v0 (ix3 (0 : Fin 1) (0 : Fin 1) p)) := by
  unfold k0_pay6 cell
  exact congrArg (fun t => IntOp.minsi 31#32 (IntOp.maxsi 0#32 (Ideal.fptosi 32 (Ideal.liftRound Int.floor t)))) (pay5_apply v0 p)

theorem pay7_apply (v0 : Vec Ideal S1x1x2048 .f32) (p : Fin 2048) :
    k0_pay7 (F := Ideal) v0 (ix1 p) = frac (v0 (ix3 (0 : Fin 1) (0 : Fin 1) p)) := by
  unfold k0_pay7 frac
  show k0_pay5 (F := Ideal) v0 (ix1 p) - (((k0_pay6 (F := Ideal) v0 (ix1 p)).toInt : ℝ) : EReal) = _
  rw [pay5_apply, pay6_apply]

theorem pay8_apply (v0 : Vec Ideal S1x1x2048 .f32) (p : Fin 2048) :
    k0_pay8 (F := Ideal) v0 (ix1 p) = scaled (v0 (ix3 (0 : Fin 1) (0 : Fin 1) p)) := by
  unfold k0_pay8 scaled binW
  exact congrArg (fun t => Ideal.div t (Ideal.ofBits .f32 0x3D000347#32)) (cast_row v0 _ p)

theorem pay9_apply (v0 : Vec Ideal S1x1x2048 .f32) (p : Fin 2048) :
    k0_pay9 (F := Ideal) v0 (ix1 p) = cell (v0 (ix3 (0 : Fin 1) (0 : Fin 1) p)) := by
  unfold k0_pay9 cell
  exact congrArg (fun t => IntOp.minsi 31#32 (IntOp.maxsi 0#32 (Ideal.fptosi 32 (Ideal.liftRound Int.floor t)))) (pay8_apply v0 p)

theorem pay10_apply (v0 : Vec Ideal S1x1x2048 .f32) (p : Fin 2048) (u : Fin 1) :
    k0_pay10 (F := Ideal) v0 (ix2 p u) = cell (v0 (ix3 (0 : Fin 1) (0 : Fin 1) p)) := by
  unfold k0_pay10
  exact (cast_col _ _ p u).trans (pay9_apply v0 p)

theorem pay11_apply (v0 : Vec Ideal S1x1x2048 .f32) (p : Fin 2048) (u : Fin 1) :
    k0_pay11 (F := Ideal) v0 (ix2 p u) = frac (v0 (ix3 (0 : Fin 1) (0 : Fin 1) p)) := by
  unfold k0_pay11 frac
  refine (cast_col _ _ p u).trans ?_
  show k0_pay8 (F := Ideal) v0 (ix1 p) - (((k0_pay9 (F := Ideal) v0 (ix1 p)).toInt : ℝ) : EReal) = _
  rw [pay8_apply, pay9_apply]

theorem pay12_apply (v0 : Vec Ideal S1x1x2048 .f32) (p : Fin 2048) (k : Fin 33) :
    k0_pay12 (F := Ideal) v0 (ix2 p k) = k0_pay10 (F := Ideal) v0 (ix2 p (0 : Fin 1)) := by
  unfold k0_pay12
  exact bcast_col _ _ p k

/-! The whole payload at (0, c, p). -/

theorem col_val (c : Fin 3) (g r : Fin 33) : (col c g r).val = c.val * 1089 + (g.val * 33 + r.val) := by
  show c.val * 1089 + g.val * 33 + r.val = _
  omega

/-- The stored value at (0, c, p): channel c's nested sums over the whole axes, over the three weight matrices and the
    table as loaded. -/
theorem pay1_apply (v70 v87 : FVec Ideal S2048x33 .f32) (v88 : FVec Ideal S2048x33 .bf16) (v89 : Vec Ideal S33x3267 .f32)
    (c : Fin 3) (p : Fin 2048) :
    k0_pay1 (F := Ideal) v70 v87 v88 v89 (ix3 (0 : Fin 1) c p)
      = ∑ r : Fin 33, v87 (ix2 p r) * ∑ g : Fin 33, v70 (ix2 p g) * ∑ b : Fin 33, v88 (ix2 p b) * v89 (ix2 b (col c g r)) := by
  have hT : ∀ i, (truncf .bf16 (shapeCast S33x3267 v89 Facts₀.shapeCasts_S33x3267_S33x3267) Facts₀.bitsLt_bf16_f32 : FVec Ideal S33x3267 .bf16) i = v89 i :=
    fun i => congrFun (shapeCast_self v89 _) i
  unfold k0_pay1
  refine (shapeCast_ab_1ab_apply _ _ (0 : Fin 1) c p).trans ?_
  match c with
  | ⟨0, _⟩ =>
    refine (concatenate_apply_piece (0 : Fin S3x2048.rank) _ _ _ 0 (by show (0 : ℕ) < 3; omega) S1x2048 _ rfl rfl 0 rfl (ix2 (0 : Fin 1) p)
      (fun b hb => by match b with | ⟨0, _⟩ => exact absurd rfl hb | ⟨1, _⟩ => rfl) rfl).trans ?_
    refine (shapeCast_a_1a_apply _ _ (0 : Fin 1) p).trans ?_
    refine (chan_apply v70 v87 v88 _ 0 _ (col 0) (fun g r => by rw [col_val]; rfl) p).trans ?_
    simp only [hT]
    rfl
  | ⟨1, _⟩ =>
    refine (concatenate_apply_piece (0 : Fin S3x2048.rank) _ _ _ 1 (by show (1 : ℕ) < 3; omega) S1x2048 _ rfl rfl 1 rfl (ix2 (0 : Fin 1) p)
      (fun b hb => by match b with | ⟨0, _⟩ => exact absurd rfl hb | ⟨1, _⟩ => rfl) rfl).trans ?_
    refine (shapeCast_a_1a_apply _ _ (0 : Fin 1) p).trans ?_
    refine (chan_apply v70 v87 v88 _ 1089 _ (col 1) (fun g r => by rw [col_val]; rfl) p).trans ?_
    simp only [hT]
    rfl
  | ⟨2, _⟩ =>
    refine (concatenate_apply_piece (0 : Fin S3x2048.rank) _ _ _ 2 (by show (2 : ℕ) < 3; omega) S1x2048 _ rfl rfl 2 rfl (ix2 (0 : Fin 1) p)
      (fun b hb => by match b with | ⟨0, _⟩ => exact absurd rfl hb | ⟨1, _⟩ => rfl) rfl).trans ?_
    refine (shapeCast_a_1a_apply _ _ (0 : Fin 1) p).trans ?_
    refine (chan_apply v70 v87 v88 _ 2178 _ (col 2) (fun g r => by rw [col_val]; rfl) p).trans ?_
    simp only [hT]
    rfl

theorem hz3 : (![0, 0, 0] : Fin 3 → Nat) = fun _ => 0 := funext fun a => by fin_cases a <;> rfl
theorem hz2 : (![0, 0] : Fin 2 → Nat) = fun _ => 0 := funext fun a => by fin_cases a <;> rfl

end Payload

open Payload Cert.KernelIdeal.Gen in
/-- Element (0, c, p) of the output block: channel c of pixel p of the block, from the pixel's three channel
    values in the input block `x0` (rows 0, 1, 2 are r, g, b) and the re-laid table `x1`. -/
theorem out_apply (x0 : Vec Ideal S1x3x2048 .f32) (x1 : Vec Ideal S33x3267 .f32) (c : Fin 3) (p : Fin 2048) :
    Cert.KernelIdeal.Gen.out0_2 (F := Ideal) x0 x1 (ix3 (0 : Fin 1) c p)
      = nested (fun b g r => x1 (ix2 b (col c g r)))
          (x0 (ix3 (0 : Fin 1) (2 : Fin 3) p)) (x0 (ix3 (0 : Fin 1) (1 : Fin 3) p)) (x0 (ix3 (0 : Fin 1) (0 : Fin 3) p)) := by
  unfold Gen.out0_2
  rw [View.canon_unit_zero hz3]
  rw [View.ld_unit_zero (S := S33x3267) hz2]
  refine (pay1_apply _ _ _ x1 c p).trans ?_
  unfold nested
  refine Finset.sum_congr rfl fun r _ => ?_
  refine congrArg₂ (· * ·) ?_ (Finset.sum_congr rfl fun g _ => congrArg₂ (· * ·) ?_ (Finset.sum_congr rfl fun b _ => congrArg₂ (· * ·) ?_ rfl))
  · rw [pay14_apply, pay3_apply, pay4_apply, ld_row0]
  · rw [pay13_apply, pay6_apply, pay7_apply, ld_row1]
  · rw [pay15_apply _ _ _ p b (pay12_apply _ p b), pay10_apply, pay11_apply, ld_row2]

end Cert.Lut3D

end
-- ==== Proof.KernelValue.lean ====
/-
  The kernel program's result array. Each grid point (n, s) of the 8 x 512 grid reads pixels [2048 s, 2048 (s + 1))
  of image n, flattened, and the whole re-laid table, and writes the three interpolated channels of those pixels; the
  blocks tile the flattened output, so after the run it holds the interpolated image flattened, and the host reshape
  after the region gives it back its four axes. The reshape and the transpose-reshape before the region are read at an
  index; the per-element identity is the payload lemma followed by the regrouping of the nested sums (which is where
  the entries' finiteness is used).
-/
import proofs.«164885_j13812614824357_1_alg».proof.Proof.Spec
import proofs.«164885_j13812614824357_1_alg».proof.Proof.Alg
import proofs.«164885_j13812614824357_1_alg».proof.Proof.KernelPayload
import proofs.«164885_j13812614824357_1_alg».proof.Proof.Gen.KernelIdeal.Frame
import Idealize.ShloMosaic.Lib.Pipeline.Value
import Idealize.ShloMosaic.Lib.StableHlo.Run

noncomputable section

namespace Cert.Lut3D.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem V_v0 (c : Dev nD) :
    (V m c main_v0 : S8x3x1048576.Idx → EReal)
      = shapeCast S8x3x1048576 (m ((c : Thread nD τ).loc main_arg1)) shapeCasts_S8x3x1024x1024_S8x3x1048576 := by
  show StableHlo.after hostOps0 (fun b => m (c, b)) (Proc.devRef .tc main_v0) = _
  after_results
  rfl

theorem V_v2 (c : Dev nD) :
    (V m c main_v2 : S33x3267.Idx → EReal)
      = shapeCast S33x3267 (transpose S33x3x33x33 [1, 0, 2, 3] (m ((c : Thread nD τ).loc main_arg0)) transposes_S3x33x33x33_S33x3x33x33_1_0_2_3) shapeCasts_S33x3x33x33_S33x3267 := by
  show StableHlo.after hostOps0 (fun b => m (c, b)) (Proc.devRef .tc main_v2) = _
  after_results
  rfl

/-- The image flattened to [8, 3, 1048576] read at (n, k, q): pixel (q / 1024, q % 1024) of channel k of image n. -/
theorem flat_apply {α : Type} (x : S8x3x1024x1024.Idx → α) (n : Fin 8) (k : Fin 3) (q : Fin 1048576) :
    shapeCast S8x3x1048576 x shapeCasts_S8x3x1024x1024_S8x3x1048576 (ix3 n k q)
      = x (ix4 n k ⟨q.val / 1024, by have := q.isLt; omega⟩ ⟨q.val % 1024, Nat.mod_lt _ (by decide)⟩) := by
  refine shapeCast_apply _ _ _ _ ?_
  rw [Shape.rowMajor_val_four, Shape.rowMajor_val_three]
  show ((n.val * 3 + k.val) * 1024 + q.val / 1024) * 1024 + q.val % 1024 = (n.val * 3 + k.val) * 1048576 + q.val
  omega

/-- The table re-laid as [33, 3267] read at (b, c * 1089 + g * 33 + r): entry [c, b, g, r]. -/
theorem relaid_apply {α : Type} (L : S3x33x33x33.Idx → α) (b : Fin 33) (ch : Fin 3) (g r : Fin 33) :
    shapeCast S33x3267 (transpose S33x3x33x33 [1, 0, 2, 3] L transposes_S3x33x33x33_S33x3x33x33_1_0_2_3) shapeCasts_S33x3x33x33_S33x3267
        (ix2 b (col ch g r))
      = L (ix4 ch b g r) := by
  refine (shapeCast_apply _ _ _ (ix4 b ch g r) ?_).trans ?_
  · rw [Shape.rowMajor_val_four, Shape.rowMajor_val_two]
    show ((b.val * 3 + ch.val) * 33 + g.val) * 33 + r.val = b.val * 3267 + (ch.val * 1089 + g.val * 33 + r.val)
    omega
  · refine transpose_apply _ _ _ _ (ix4 ch b g r) (fun a => ?_)
    match a with
    | ⟨0, _⟩ => rfl
    | ⟨1, _⟩ => rfl
    | ⟨2, _⟩ => rfl
    | ⟨3, _⟩ => rfl

/-- The interpolated image, flattened as the kernel's output array is. -/
abbrev Gflat (L : S3x33x33x33.Idx → EReal) (x : S8x3x1024x1024.Idx → EReal) : S8x3x1048576.Idx → EReal :=
  shapeCast S8x3x1048576 (G L x) shapeCasts_S8x3x1024x1024_S8x3x1048576

/-- Grid point t works on image t / 512 and on pixels [2048 * (t % 512), 2048 * (t % 512 + 1)) of it, for the input
    and the output alike; the table's one block is the whole table. -/
theorem idx_facts : ∀ t : Fin cfg0.N,
    win0_2.index t (0 : Fin 3) = t.val / 512 ∧ win0_2.index t (1 : Fin 3) = 0 ∧ win0_2.index t (2 : Fin 3) = t.val % 512
    ∧ win0_0.index t (0 : Fin 3) = t.val / 512 ∧ win0_0.index t (1 : Fin 3) = 0 ∧ win0_0.index t (2 : Fin 3) = t.val % 512
    ∧ win0_1.index t (0 : Fin 2) = 0 ∧ win0_1.index t (1 : Fin 2) = 0 :=
  (by decide +kernel : ∀ t : Fin grid0.N, _)

theorem flushed_eq (c : Dev nD)
    (hL : ∀ i, ∃ r : ℝ, m ((c : Thread nD τ).loc main_arg0) i = (r : EReal))
    (hx : ∀ i, ∃ r : ℝ, m ((c : Thread nD τ).loc main_arg1) i = (r : EReal)) (t : Fin cfg0.N) :
    (dats m 0 c).flushed 2 t
      = ((cfg0.win 2).blk t).view.read (Elt Ideal) (Gflat (m ((c : Thread nD τ).loc main_arg0)) (m ((c : Thread nD τ).loc main_arg1))) := by
  show (cfg0.win 2).cut (grid0.coords t) ((dats m 0 c).after 2 t) = _
  rw [after0_2]
  obtain ⟨e0, e1, e2, f0, f1, f2, g0, g1⟩ := idx_facts t
  funext y
  revert y
  show ∀ y : S1x3x2048.Idx, out0_2 (iblk m c 0 t) (iblk m c 1 t) y
      = Gflat (m ((c : Thread nD τ).loc main_arg0)) (m ((c : Thread nD τ).loc main_arg1)) (((cfg0.win 2).blk t).view.emb y)
  intro y
  obtain ⟨u, ch, p, rfl⟩ : ∃ (u : Fin 1) (ch : Fin 3) (p : Fin 2048), y = ix3 u ch p := ⟨y 0, y 1, y 2, eq_ix3 y⟩
  obtain rfl : u = 0 := Subsingleton.elim _ _
  rw [out_apply]
  have ht : t.val < 4096 := lt_of_lt_of_eq t.isLt N_0
  have hn : t.val / 512 < 8 := by omega
  have hq : t.val % 512 * 2048 + p.val < 1048576 := by have := p.isLt; omega
  -- the input block's rows are the pixel's three channel values
  have hb0 : ∀ k : Fin 3, iblk m c 0 t (ix3 (0 : Fin 1) k p)
      = m ((c : Thread nD τ).loc main_arg1) (ix4 (⟨t.val / 512, hn⟩ : Fin 8) k
          ⟨(t.val % 512 * 2048 + p.val) / 1024, by omega⟩ ⟨(t.val % 512 * 2048 + p.val) % 1024, Nat.mod_lt _ (by decide)⟩) := by
    intro k
    show V m c main_v0 (((cfg0.win 0).blk t).view.emb (ix3 (0 : Fin 1) k p)) = _
    have he : ((cfg0.win 0).blk t).view.emb (ix3 (0 : Fin 1) k p)
        = ix3 (⟨t.val / 512, hn⟩ : Fin 8) k (⟨t.val % 512 * 2048 + p.val, hq⟩ : Fin 1048576) := by
      funext a; apply Fin.ext
      match a with
      | ⟨0, _⟩ => show win0_0.index t (0 : Fin 3) * 1 + 1 * 0 = t.val / 512; omega
      | ⟨1, _⟩ => show win0_0.index t (1 : Fin 3) * 3 + 1 * k.val = k.val; omega
      | ⟨2, _⟩ => show win0_0.index t (2 : Fin 3) * 2048 + 1 * p.val = t.val % 512 * 2048 + p.val; omega
    rw [he, V_v0, flat_apply]
  -- the table's block is the whole re-laid table
  have hb1 : ∀ b g r : Fin 33, iblk m c 1 t (ix2 b (col ch g r)) = m ((c : Thread nD τ).loc main_arg0) (ix4 ch b g r) := by
    intro b g r
    show V m c main_v2 (((cfg0.win 1).blk t).view.emb (ix2 b (col ch g r))) = _
    have he : ((cfg0.win 1).blk t).view.emb (ix2 b (col ch g r)) = ix2 b (col ch g r) := by
      funext a; apply Fin.ext
      match a with
      | ⟨0, _⟩ => show win0_1.index t (0 : Fin 2) * 33 + 1 * b.val = b.val; omega
      | ⟨1, _⟩ => show win0_1.index t (1 : Fin 2) * 3267 + 1 * (col ch g r).val = (col ch g r).val; omega
    rw [he, V_v2, relaid_apply]
  have hr : ((cfg0.win 2).blk t).view.emb (ix3 (0 : Fin 1) ch p)
      = ix3 (⟨t.val / 512, hn⟩ : Fin 8) ch (⟨t.val % 512 * 2048 + p.val, hq⟩ : Fin 1048576) := by
    funext a; apply Fin.ext
    match a with
    | ⟨0, _⟩ => show win0_2.index t (0 : Fin 3) * 1 + 1 * 0 = t.val / 512; omega
    | ⟨1, _⟩ => show win0_2.index t (1 : Fin 3) * 3 + 1 * ch.val = ch.val; omega
    | ⟨2, _⟩ => show win0_2.index t (2 : Fin 3) * 2048 + 1 * p.val = t.val % 512 * 2048 + p.val; omega
  rw [hr]
  show _ = shapeCast S8x3x1048576 (G _ _) shapeCasts_S8x3x1024x1024_S8x3x1048576 _
  rw [flat_apply]
  simp only [hb0, hb1]
  rw [nested_eq_tri _ _ _ _ (fun b g r => hL _) (hx _) (hx _) (hx _)]
  rfl

/-- An index of the output array is in point t's block iff each coordinate is in the block's range on its axis. -/
theorem mem_blk (t : Fin cfg0.N) (i : S8x3x1048576.Idx) :
    i ∈ ((cfg0.win 2).blk t).view.set ↔ ∀ a : Fin 3, win0_2.index t a * S1x3x2048.size a ≤ (i a).val
      ∧ (i a).val < win0_2.index t a * S1x3x2048.size a + S1x3x2048.size a := by
  show i ∈ ((View.whole main_v3).slice (win0_2.rect t)).set ↔ _
  rw [View.set_slice_whole, Rect.mem_set_unit]
  exact Iff.rfl

/-- Every index (n, k, q) of the output array lies in the block of point 512 * n + q / 2048. -/
theorem cover (i : S8x3x1048576.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1048576 := (i 2).isLt
  have hN : (i 0).val * 512 + (i 2).val / 2048 < cfg0.N := by rw [show cfg0.N = 4096 from N_0]; omega
  refine ⟨⟨(i 0).val * 512 + (i 2).val / 2048, hN⟩, flush0_2 _, ?_⟩
  obtain ⟨e0, e1, e2, -⟩ := idx_facts ⟨(i 0).val * 512 + (i 2).val / 2048, hN⟩
  have e0' : win0_2.index ⟨(i 0).val * 512 + (i 2).val / 2048, hN⟩ (0 : Fin 3) = ((i 0).val * 512 + (i 2).val / 2048) / 512 := e0
  have e2' : win0_2.index ⟨(i 0).val * 512 + (i 2).val / 2048, hN⟩ (2 : Fin 3) = ((i 0).val * 512 + (i 2).val / 2048) % 512 := e2
  rw [mem_blk]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 3 ≤ (i 1).val ∧ (i 1).val < win0_2.index _ (1 : Fin 3) * 3 + 3
    omega
  | ⟨2, _⟩ =>
    show win0_2.index _ (2 : Fin 3) * 2048 ≤ (i 2).val ∧ (i 2).val < win0_2.index _ (2 : Fin 3) * 2048 + 2048
    omega

/-- The output array after the run is the interpolated image, flattened. -/
theorem final (c : Dev nD)
    (hL : ∀ i, ∃ r : ℝ, m ((c : Thread nD τ).loc main_arg0) i = (r : EReal))
    (hx : ∀ i, ∃ r : ℝ, m ((c : Thread nD τ).loc main_arg1) i = (r : EReal)) :
    (dats m 0 c).arrAt 2 cfg0.N = Gflat (m ((c : Thread nD τ).loc main_arg0)) (m ((c : Thread nD τ).loc main_arg1)) :=
  (dats m 0 c).arrAt_eq_of_cover 2 _ (fun t _ => flushed_eq m c hL hx t) cover

/-- The host reshape after the region gives the interpolated image its four axes back. -/
theorem tail_v4 (c : Dev nD)
    (hL : ∀ i, ∃ r : ℝ, m ((c : Thread nD τ).loc main_arg0) i = (r : EReal))
    (hx : ∀ i, ∃ r : ℝ, m ((c : Thread nD τ).loc main_arg1) i = (r : EReal)) :
    Pipeline.afterTail₀ cfgs (dats m) 0 (V0 m) [hostOps1] c main_v4
      = G (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = Gflat (m ((c : Thread nD τ).loc main_arg0)) (m ((c : Thread nD τ).loc main_arg1)) :=
    (Pipeline.withArrays_arr spec0 launch0.win.arr_inj c _ _ 2).trans (final m c hL hx)
  rw [hw]
  exact shapeCast_shapeCast _ _ _

/-- The kernel program's run, read: the result array ends at the interpolated image of the two argument arrays
    (when their entries are real), the arguments unchanged. -/
theorem run
    (hreal : ∀ c : Dev nD, (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (tail_v4 m c (hreal c).1 (hreal c).2),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Lut3D.KernelValue

end
-- ==== Proof.lean ====
/-
  The certificate: a Pallas kernel that interpolates an image trilinearly in a 33 x 33 x 33 colour table against its
  jnp reference, over the extended reals.

  Both programs compute, per pixel and output channel, the same eight-corner interpolation (Proof/Spec.lean, `G`).
  The reference gathers the eight corners of the pixel's lattice cell from the flattened table and accumulates them
  with their weights (Proof/RefGather.lean, Proof/RefValue.lean). The kernel instead builds, per axis, a 33-wide weight
  vector that is zero off the cell's two nodes, contracts the b axis by a matrix product with the re-laid table and the
  g and r axes by weighted lane sums (Proof/KernelPayload.lean); a weighted sum with two non-zero weights is the
  two-term sum, and over the reals three nested ones regroup into the eight-corner sum (Proof/Alg.lean) — the one step
  that needs the precondition, every input entry finite (Proof/Finite.lean). Proof/KernelValue.lean carries the
  per-element identity through the grid's blocks and the host reshapes around the region.

  The three frames are the generated ones (the reference's from its generated run); the idealisation rewrote
  nothing, so `preserves` is trivial.
-/
import proofs.«164885_j13812614824357_1_alg».proof.Defs
import proofs.«164885_j13812614824357_1_alg».proof.Proof.Gen.Kernel
import proofs.«164885_j13812614824357_1_alg».proof.Proof.Gen.Kernel.Skeleton
import proofs.«164885_j13812614824357_1_alg».proof.Proof.Gen.Kernel.Launch
import proofs.«164885_j13812614824357_1_alg».proof.Proof.Gen.Kernel.Points
import proofs.«164885_j13812614824357_1_alg».proof.Proof.Gen.Kernel.Frame
import proofs.«164885_j13812614824357_1_alg».proof.Proof.Gen.KernelIdeal
import proofs.«164885_j13812614824357_1_alg».proof.Proof.Gen.KernelIdeal.Skeleton
import proofs.«164885_j13812614824357_1_alg».proof.Proof.Gen.KernelIdeal.Launch
import proofs.«164885_j13812614824357_1_alg».proof.Proof.Gen.KernelIdeal.Points
import proofs.«164885_j13812614824357_1_alg».proof.Proof.Gen.KernelIdeal.Frame
import proofs.«164885_j13812614824357_1_alg».proof.Proof.Gen.ReferenceIdeal
import proofs.«164885_j13812614824357_1_alg».proof.Proof.Gen.ReferenceIdeal.Run
import proofs.«164885_j13812614824357_1_alg».proof.Proof.Gen.ReferenceIdeal.Read
import proofs.«164885_j13812614824357_1_alg».proof.Proof.Gen.Pre_finite_inputs
import proofs.«164885_j13812614824357_1_alg».proof.Proof.Finite
import proofs.«164885_j13812614824357_1_alg».proof.Proof.RefValue
import proofs.«164885_j13812614824357_1_alg».proof.Proof.KernelValue
import Idealize.ShloMosaic.Adequacy
import Idealize.ShloMosaic.Init

noncomputable section

namespace Cert.Proof

open Idealize.ShloMosaic Idealize.ShloMosaic.TcCoe Idealize.SL.Sem

/-- At the ideal instance both programs end with the interpolated image of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Lut3D.real_of_pre _ _ (hpre c)
  refine ⟨_, Cert.Lut3D.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v203_eq, Cert.Lut3D.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
